-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x19x19x256 : Shape := ⟨4, ![256, 19, 19, 256]⟩
abbrev S256x256 : Shape := ⟨2, ![256, 256]⟩
abbrev S256 : Shape := ⟨1, ![256]⟩
abbrev S361x361 : Shape := ⟨2, ![361, 361]⟩
abbrev S361 : Shape := ⟨1, ![361]⟩
abbrev S_ : Shape := ⟨0, ![]⟩

class Facts : Prop where
  bcast_S_S256x19x19x256 : S_.BroadcastsInDim S256x19x19x256 (![] : Fin 0 → Fin S256x19x19x256.rank)
  reducesTo_S256x19x19x256_S_d0_1_2_3 : S256x19x19x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S361x361 : S_.BroadcastsInDim S361x361 (![] : Fin 0 → Fin S361x361.rank)
  reducesTo_S361x361_S_d0_1 : S361x361.ReducesTo [0, 1] S_
  bcast_S_S361 : S_.BroadcastsInDim S361 (![] : Fin 0 → Fin S361.rank)
  reducesTo_S361_S_d0 : S361.ReducesTo [0] S_

variable [Facts]

def fn_part4 {F : FTy → Type} [FloatOps F] (main_arg11 : FVec F S256 .f32) (main_v67 : IVec S_ 1) : IVec S_ 1 :=
  let main_cst_26 : FVec F S_ .f32 := constant S_ .f32 0x00000000#32
  let main_v68 : FVec F S256 .f32 := broadcastInDim S256 ![] bcast_S_S256 main_cst_26
  let main_v69 : IVec S256 1 := cmpf .oge main_arg11 main_v68
  let main_c_27 : IVec S_ 1 := constantI S_ 1 1#1
  let main_v70 : IVec S_ 1 := (fun x v => Host.reduce IntOp.andi x v reducesTo_S256_S_d0 h_S_) main_v69 main_c_27
  let main_v71 : IVec S_ 1 := andi main_v67 main_v70
  main_v71

def fn_part3 {F : FTy → Type} [FloatOps F] (main_arg4 : FVec F S256 .f32) (main_arg11 : FVec F S256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_cst_24 : FVec F S_ .f32 := constant S_ .f32 0x00000000#32
  let main_v64 : FVec F S256 .f32 := broadcastInDim S256 ![] bcast_S_S256 main_cst_24
  let main_v65 : IVec S256 1 := cmpf .oge main_arg4 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v63 main_v66
  fn_part4 (F := F) main_arg11 main_v67

def fn_part2 {F : FTy → Type} [FloatOps F] (main_arg4 : FVec F S256 .f32) (main_arg7 : FVec F S361 .f32) (main_arg8 : FVec F S256x256 .f32) (main_arg9 : FVec F S256 .f32) (main_arg10 : FVec F S256 .f32) (main_arg11 : FVec F S256 .f32) (main_arg12 : FVec F S256 .f32) (main_v33 : IVec S_ 1) : IVec S_ 1 :=
  let main_v34 : FVec F S361 .f32 := Host.absf main_arg7
  let main_cst_12 : FVec F S_ .f32 := constant S_ .f32 0x7F800000#32
  let main_v35 : FVec F S361 .f32 := broadcastInDim S361 ![] bcast_S_S361 main_cst_12
  let main_v36 : IVec S361 1 := cmpf .olt main_v34 main_v35
  let main_c_13 : IVec S_ 1 := constantI S_ 1 1#1
  let main_v37 : IVec S_ 1 := (fun x v => Host.reduce IntOp.andi x v reducesTo_S361_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg4 main_arg11 main_arg12 main_v48 main_v49 main_v50

def fn_part1 {F : FTy → Type} [FloatOps F] (main_arg4 : FVec F S256 .f32) (main_arg5 : FVec F S256 .f32) (main_arg6 : FVec F S361x361 .f32) (main_arg7 : FVec F S361 .f32) (main_arg8 : FVec F S256x256 .f32) (main_arg9 : FVec F S256 .f32) (main_arg10 : FVec F S256 .f32) (main_arg11 : FVec F S256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S361x361 .f32 := Host.absf main_arg6
  let main_cst_10 : FVec F S_ .f32 := constant S_ .f32 0x7F800000#32
  let main_v30 : FVec F S361x361 .f32 := broadcastInDim S361x361 ![] bcast_S_S361x361 main_cst_10
  let main_v31 : IVec S361x361 1 := cmpf .olt main_v29 main_v30
  let main_c_11 : IVec S_ 1 := constantI S_ 1 1#1
  let main_v32 : IVec S_ 1 := (fun x v => Host.reduce IntOp.andi x v reducesTo_S361x361_S_d0_1 h_S_) main_v31 main_c_11
  let main_v33 : IVec S_ 1 := andi main_v28 main_v32
  fn_part2 (F := F) main_arg4 main_arg7 main_arg8 main_arg9 main_arg10 main_arg11 main_arg12 main_v33

def fn {F : FTy → Type} [FloatOps F] (main_arg0 : FVec F S256x19x19x256 .f32) (main_arg1 : FVec F S256x256 .f32) (main_arg2 : FVec F S256 .f32) (main_arg3 : FVec F S256 .f32) (main_arg4 : FVec F S256 .f32) (main_arg5 : FVec F S256 .f32) (main_arg6 : FVec F S361x361 .f32) (main_arg7 : FVec F S361 .f32) (main_arg8 : FVec F S256x256 .f32) (main_arg9 : FVec F S256 .f32) (main_arg10 : FVec F S256 .f32) (main_arg11 : FVec F S256 .f32) (main_arg12 : FVec F S256 .f32) : IVec S_ 1 :=
  let main_v0 : FVec F S256x19x19x256 .f32 := Host.absf main_arg0
  let main_cst : FVec F S_ .f32 := constant S_ .f32 0x7F800000#32
  let main_v1 : FVec F S256x19x19x256 .f32 := broadcastInDim S256x19x19x256 ![] bcast_S_S256x19x19x256 main_cst
  let main_v2 : IVec S256x19x19x256 1 := cmpf .olt main_v0 main_v1
  let main_c : IVec S_ 1 := constantI S_ 1 1#1
  let main_v3 : IVec S_ 1 := (fun x v => Host.reduce IntOp.andi x v reducesTo_S256x19x19x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S256x19x19x256 : Shape := ⟨4, ![256, 19, 19, 256]⟩
abbrev S256x256 : Shape := ⟨2, ![256, 256]⟩
abbrev S256 : Shape := ⟨1, ![256]⟩
abbrev S361x361 : Shape := ⟨2, ![361, 361]⟩
abbrev S361 : Shape := ⟨1, ![361]⟩
abbrev S_ : Shape := ⟨0, ![]⟩
abbrev S1x256 : Shape := ⟨2, ![1, 256]⟩
abbrev S361x1 : Shape := ⟨2, ![361, 1]⟩
abbrev S256x361x256 : Shape := ⟨3, ![256, 361, 256]⟩
abbrev S8x361x256 : Shape := ⟨3, ![8, 361, 256]⟩
abbrev S1x361x256 : Shape := ⟨3, ![1, 361, 256]⟩
abbrev S361x256 : Shape := ⟨2, ![361, 256]⟩

abbrev nBuf : Space → Nat
  | .hbm => 45
  | .vmem => 10
  | .smem => 0
  | _ => 0

abbrev bufTy : (tb : Table) → Fin (tcTables nBuf tb) → BufTy
  | .hbm, ⟨0, _⟩ => ⟨S256x19x19x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S361x361, .f32⟩
  | .hbm, ⟨7, _⟩ => ⟨S361, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256x256, .bf16⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S1x256, .f32⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S256, .f32⟩
  | .hbm, ⟨37, _⟩ => ⟨S256, .f32⟩
  | .hbm, ⟨38, _⟩ => ⟨S1x256, .f32⟩
  | .hbm, ⟨39, _⟩ => ⟨S361x361, .f32⟩
  | .hbm, ⟨40, _⟩ => ⟨S361x361, .bf16⟩
  | .hbm, ⟨41, _⟩ => ⟨S361x1, .f32⟩
  | .hbm, ⟨42, _⟩ => ⟨S256x361x256, .f32⟩
  | .hbm, ⟨43, _⟩ => ⟨S256x361x256, .f32⟩
  | .hbm, ⟨44, _⟩ => ⟨S256x19x19x256, .f32⟩
  | .local _ .vmem, ⟨0, _⟩ => ⟨S8x361x256, .f32⟩
  | .local _ .vmem, ⟨1, _⟩ => ⟨S8x361x256, .f32⟩
  | .local _ .vmem, ⟨2, _⟩ => ⟨S256x256, .bf16⟩
  | .local _ .vmem, ⟨3, _⟩ => ⟨S1x256, .f32⟩
  | .local _ .vmem, ⟨4, _⟩ => ⟨S361x361, .bf16⟩
  | .local _ .vmem, ⟨5, _⟩ => ⟨S361x1, .f32⟩
  | .local _ .vmem, ⟨6, _⟩ => ⟨S256x256, .bf16⟩
  | .local _ .vmem, ⟨7, _⟩ => ⟨S1x256, .f32⟩
  | .local _ .vmem, ⟨8, _⟩ => ⟨S8x361x256, .f32⟩
  | .local _ .vmem, ⟨9, _⟩ => ⟨S8x361x256, .f32⟩
  | _, _ => ⟨S256x19x19x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x361x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S361x361 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S361x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x361x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bitsLt_bf16_f32 : FTy.bits .bf16 < FTy.bits .f32
  shapeCasts_S256_S1x256 : S256.ShapeCasts S1x256
  transposes_S361x361_S361x361_1_0 : S361x361.Transposes [1, 0] S361x361
  shapeCasts_S361_S361x1 : S361.ShapeCasts S361x1
  shapeCasts_S256x19x19x256_S256x361x256 : S256x19x19x256.ShapeCasts S256x361x256
  inb_S8x361x256_S1x361x256_0_0_0 : ∀ a, (![0, 0, 0] : Fin 3 → Nat) a + S1x361x256.size a ≤ S8x361x256.size a
  h_S1x361x256 : 0 < S1x361x256.numel
  shapeCasts_S1x361x256_S361x256 : S1x361x256.ShapeCasts S361x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S361x256 : S1x256.Broadcasts S361x256
  inb_S361x361_S361x361_0_0 : ∀ a, (![0, 0] : Fin 2 → Nat) a + S361x361.size a ≤ S361x361.size a
  h_S361x361 : 0 < S361x361.numel
  shapeCasts_S361x361_S361x361 : S361x361.ShapeCasts S361x361
  inb_S361x1_S361x1_0_0 : ∀ a, (![0, 0] : Fin 2 → Nat) a + S361x1.size a ≤ S361x1.size a
  h_S361x1 : 0 < S361x1.numel
  shapeCasts_S361x1_S361x1 : S361x1.ShapeCasts S361x1
  broadcasts_S361x1_S361x256 : S361x1.Broadcasts S361x256
  shapeCasts_S361x256_S1x361x256 : S361x256.ShapeCasts S1x361x256
  inb_S8x361x256_S1x361x256_1_0_0 : ∀ a, (![1, 0, 0] : Fin 3 → Nat) a + S1x361x256.size a ≤ S8x361x256.size a
  inb_S8x361x256_S1x361x256_2_0_0 : ∀ a, (![2, 0, 0] : Fin 3 → Nat) a + S1x361x256.size a ≤ S8x361x256.size a
  inb_S8x361x256_S1x361x256_3_0_0 : ∀ a, (![3, 0, 0] : Fin 3 → Nat) a + S1x361x256.size a ≤ S8x361x256.size a
  inb_S8x361x256_S1x361x256_4_0_0 : ∀ a, (![4, 0, 0] : Fin 3 → Nat) a + S1x361x256.size a ≤ S8x361x256.size a
  inb_S8x361x256_S1x361x256_5_0_0 : ∀ a, (![5, 0, 0] : Fin 3 → Nat) a + S1x361x256.size a ≤ S8x361x256.size a
  inb_S8x361x256_S1x361x256_6_0_0 : ∀ a, (![6, 0, 0] : Fin 3 → Nat) a + S1x361x256.size a ≤ S8x361x256.size a
  inb_S8x361x256_S1x361x256_7_0_0 : ∀ a, (![7, 0, 0] : Fin 3 → Nat) a + S1x361x256.size a ≤ S8x361x256.size a
  shapeCasts_S256x361x256_S256x19x19x256 : S256x361x256.ShapeCasts S256x19x19x256
  dot_S361x256_S256x256_S361x256_1_0_0_1_n_n_wf : DotDims.WF S361x256 S256x256 S361x256 [1] [0] [0] [1] [] []
  dot_S361x361_S361x256_S361x256_1_0_0_1_n_n_wf : DotDims.WF S361x361 S361x256 S361x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x361x256.size a ≤ S256x361x256.size a
  hwx0_0 : ∀ i : grid0.Coords, EltTy.bits .f32 = 32 ∨ (Rect.block (s := S256x361x256) S8x361x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S361x361.size a ≤ S361x361.size a
  hwx0_3 : ∀ i : grid0.Coords, EltTy.bits .bf16 = 32 ∨ (Rect.block (s := S361x361) S361x361.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S361x1.size a ≤ S361x1.size a
  hwx0_4 : ∀ i : grid0.Coords, EltTy.bits .f32 = 32 ∨ (Rect.block (s := S361x1) S361x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x361x256.size a ≤ S256x361x256.size a
  hwx0_7 : ∀ i : grid0.Coords, EltTy.bits .f32 = 32 ∨ (Rect.block (s := S256x361x256) S8x361x256.size (cc0_transform_7 i) (hinb0_7 i)).WholeWords (EltTy.packing .f32)

variable [Facts₀]

def dot_S361x256_S256x256_S361x256_1_0_0_1_n_n : DotDims S361x256 S256x256 S361x256 where
  lhsContracting := [1]
  rhsContracting := [0]
  lhsNonContracting := [0]
  rhsNonContracting := [1]
  lhsBatch := []
  rhsBatch := []
  wf := dot_S361x256_S256x256_S361x256_1_0_0_1_n_n_wf
def dot_S361x361_S361x256_S361x256_1_0_0_1_n_n : DotDims S361x361 S361x256 S361x256 where
  lhsContracting := [1]
  rhsContracting := [0]
  lhsNonContracting := [0]
  rhsNonContracting := [1]
  lhsBatch := []
  rhsBatch := []
  wf := dot_S361x361_S361x256_S361x256_1_0_0_1_n_n_wf

abbrev win0_0 : Pipeline.Window sig grid0 :=
  Pipeline.Window.ofSpec (Memref.whole main_v27) S8x361x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S361x361.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S361x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S8x361x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x19x19x256 : Shape := ⟨4, ![256, 19, 19, 256]⟩
abbrev S256x256 : Shape := ⟨2, ![256, 256]⟩
abbrev S256 : Shape := ⟨1, ![256]⟩
abbrev S361x361 : Shape := ⟨2, ![361, 361]⟩
abbrev S361 : Shape := ⟨1, ![361]⟩
abbrev S1x1x1x256 : Shape := ⟨4, ![1, 1, 1, 256]⟩
abbrev S_ : Shape := ⟨0, ![]⟩
abbrev S256x256x19x19 : Shape := ⟨4, ![256, 256, 19, 19]⟩
abbrev S256x256x361 : Shape := ⟨3, ![256, 256, 361]⟩
abbrev S1x1x361 : Shape := ⟨3, ![1, 1, 361]⟩

abbrev nBuf : Space → Nat
  | .hbm => 65
  | .vmem => 0
  | .smem => 0
  | _ => 0

abbrev bufTy : (tb : Table) → Fin (tcTables nBuf tb) → BufTy
  | .hbm, ⟨0, _⟩ => ⟨S256x19x19x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S361x361, .f32⟩
  | .hbm, ⟨7, _⟩ => ⟨S361, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x19x19x256, .f32⟩
  | .hbm, ⟨14, _⟩ => ⟨S1x1x1x256, .f32⟩
  | .hbm, ⟨15, _⟩ => ⟨S256x19x19x256, .f32⟩
  | .hbm, ⟨16, _⟩ => ⟨S256x19x19x256, .f32⟩
  | .hbm, ⟨17, _⟩ => ⟨S1x1x1x256, .f32⟩
  | .hbm, ⟨18, _⟩ => ⟨S256x19x19x256, .f32⟩
  | .hbm, ⟨19, _⟩ => ⟨S256x19x19x256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x1x1x256, .f32⟩
  | .hbm, ⟨25, _⟩ => ⟨S256x19x19x256, .f32⟩
  | .hbm, ⟨26, _⟩ => ⟨S256x19x19x256, .f32⟩
  | .hbm, ⟨27, _⟩ => ⟨S1x1x1x256, .f32⟩
  | .hbm, ⟨28, _⟩ => ⟨S256x19x19x256, .f32⟩
  | .hbm, ⟨29, _⟩ => ⟨S256x19x19x256, .f32⟩
  | .hbm, ⟨30, _⟩ => ⟨S_, .f32⟩
  | .hbm, ⟨31, _⟩ => ⟨S256x19x19x256, .f32⟩
  | .hbm, ⟨32, _⟩ => ⟨S256x19x19x256, .f32⟩
  | .hbm, ⟨33, _⟩ => ⟨S256x256x19x19, .f32⟩
  | .hbm, ⟨34, _⟩ => ⟨S256x256x361, .f32⟩
  | .hbm, ⟨35, _⟩ => ⟨S256x256x361, .f32⟩
  | .hbm, ⟨36, _⟩ => ⟨S1x1x361, .f32⟩
  | .hbm, ⟨37, _⟩ => ⟨S256x256x361, .f32⟩
  | .hbm, ⟨38, _⟩ => ⟨S256x256x361, .f32⟩
  | .hbm, ⟨39, _⟩ => ⟨S_, .f32⟩
  | .hbm, ⟨40, _⟩ => ⟨S256x256x361, .f32⟩
  | .hbm, ⟨41, _⟩ => ⟨S256x256x361, .f32⟩
  | .hbm, ⟨42, _⟩ => ⟨S256x256x19x19, .f32⟩
  | .hbm, ⟨43, _⟩ => ⟨S256x19x19x256, .f32⟩
  | .hbm, ⟨44, _⟩ => ⟨S256x19x19x256, .f32⟩
  | .hbm, ⟨45, _⟩ => ⟨S1x1x1x256, .f32⟩
  | .hbm, ⟨46, _⟩ => ⟨S256x19x19x256, .f32⟩
  | .hbm, ⟨47, _⟩ => ⟨S256x19x19x256, .f32⟩
  | .hbm, ⟨48, _⟩ => ⟨S1x1x1x256, .f32⟩
  | .hbm, ⟨49, _⟩ => ⟨S256x19x19x256, .f32⟩
  | .hbm, ⟨50, _⟩ => ⟨S256x19x19x256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S1x1x1x256, .f32⟩
  | .hbm, ⟨56, _⟩ => ⟨S256x19x19x256, .f32⟩
  | .hbm, ⟨57, _⟩ => ⟨S256x19x19x256, .f32⟩
  | .hbm, ⟨58, _⟩ => ⟨S1x1x1x256, .f32⟩
  | .hbm, ⟨59, _⟩ => ⟨S256x19x19x256, .f32⟩
  | .hbm, ⟨60, _⟩ => ⟨S256x19x19x256, .f32⟩
  | .hbm, ⟨61, _⟩ => ⟨S_, .f32⟩
  | .hbm, ⟨62, _⟩ => ⟨S256x19x19x256, .f32⟩
  | .hbm, ⟨63, _⟩ => ⟨S256x19x19x256, .f32⟩
  | .hbm, ⟨64, _⟩ => ⟨S256x19x19x256, .f32⟩
  | _, _ => ⟨S256x19x19x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S256x19x19x256_0_1_2_3 : S1x1x1x256.BroadcastsInDim S256x19x19x256 (![0, 1, 2, 3] : Fin 4 → Fin S256x19x19x256.rank)
  bcast_S_S256 : S_.BroadcastsInDim S256 (![] : Fin 0 → Fin S256.rank)
  bcast_S_S256x19x19x256 : S_.BroadcastsInDim S256x19x19x256 (![] : Fin 0 → Fin S256x19x19x256.rank)
  transposes_S256x19x19x256_S256x256x19x19_0_3_1_2 : S256x19x19x256.Transposes [0, 3, 1, 2] S256x256x19x19
  shapeCasts_S256x256x19x19_S256x256x361 : S256x256x19x19.ShapeCasts S256x256x361
  bcast_S361_S1x1x361_2 : S361.BroadcastsInDim S1x1x361 (![2] : Fin 1 → Fin S1x1x361.rank)
  bcast_S1x1x361_S256x256x361_0_1_2 : S1x1x361.BroadcastsInDim S256x256x361 (![0, 1, 2] : Fin 3 → Fin S256x256x361.rank)
  bcast_S_S256x256x361 : S_.BroadcastsInDim S256x256x361 (![] : Fin 0 → Fin S256x256x361.rank)
  shapeCasts_S256x256x361_S256x256x19x19 : S256x256x361.ShapeCasts S256x256x19x19
  transposes_S256x256x19x19_S256x19x19x256_0_2_3_1 : S256x256x19x19.Transposes [0, 2, 3, 1] S256x19x19x256
  dot_S256x19x19x256_S256x256_S256x19x19x256_3_0_012_1_n_n_wf : DotDims.WF S256x19x19x256 S256x256 S256x19x19x256 [3] [0] [0, 1, 2] [1] [] []
  dot_S256x256x361_S361x361_S256x256x361_2_0_01_1_n_n_wf : DotDims.WF S256x256x361 S361x361 S256x256x361 [2] [0] [0, 1] [1] [] []

variable [Facts₀]

def dot_S256x19x19x256_S256x256_S256x19x19x256_3_0_012_1_n_n : DotDims S256x19x19x256 S256x256 S256x19x19x256 where
  lhsContracting := [3]
  rhsContracting := [0]
  lhsNonContracting := [0, 1, 2]
  rhsNonContracting := [1]
  lhsBatch := []
  rhsBatch := []
  wf := dot_S256x19x19x256_S256x256_S256x19x19x256_3_0_012_1_n_n_wf
def dot_S256x256x361_S361x361_S256x256x361_2_0_01_1_n_n : DotDims S256x256x361 S361x361 S256x256x361 where
  lhsContracting := [2]
  rhsContracting := [0]
  lhsNonContracting := [0, 1]
  rhsNonContracting := [1]
  lhsBatch := []
  rhsBatch := []
  wf := dot_S256x256x361_S361x361_S256x256x361_2_0_01_1_n_n_wf

class Facts : Prop extends Facts₀ where

variable [Facts]
-- ==== Proof.Spec.lean ====
/-
  The mathematics of the residual block, stated once over extended reals and literal shapes, with no program in sight.

  Inputs: an image batch `x[n,h,w,c]` (256 × 19 × 19 × 256), two channel mixes `w1`, `w2` (256 × 256) each followed
  by an inference batch normalisation without scale (`b`, `mean`, `var`, `beta` per output channel), and between them a
  dense mix `dw` (361 × 361, bias `db`) over the flattened board position `p = 19·h + w`.

  Two readings of the same block are written out index by index:
  * `ref…`: normalise AFTER the channel mix — `((Σ_c x·w + b) − mean) · rsqrt(var + ε) + beta`;
  * `ker…`: the normalisation FOLDED into the mix — `Σ_c x·(w · s) + (b · s + (beta − mean · s))`, `s = rsqrt(var + ε)`,
    the board kept flattened, the dense mix applied from the left with the transposed matrix.
  They agree when every entry is a real number and both variances are non-negative (`s` is then a positive real and
  multiplication distributes over the sums): `kerOut_eq_refOut`, proved in the algebra module.
-/
import Idealize.ShloMosaic.PureOps.Ideal
import Idealize.ShloMosaic.Lib.ValueIdx

noncomputable section

namespace Cert.Spec

open Idealize.ShloMosaic Idealize.ShloMosaic.ValueIdx
open scoped BigOperators

/-- The thirteen input arrays, as functions of their multi-indices into the extended reals. -/
structure Args where
  x : (⟨4, ![256, 19, 19, 256]⟩ : Shape).Idx → EReal
  w1 : (⟨2, ![256, 256]⟩ : Shape).Idx → EReal
  b1 : (⟨1, ![256]⟩ : Shape).Idx → EReal
  mean1 : (⟨1, ![256]⟩ : Shape).Idx → EReal
  var1 : (⟨1, ![256]⟩ : Shape).Idx → EReal
  beta1 : (⟨1, ![256]⟩ : Shape).Idx → EReal
  dw : (⟨2, ![361, 361]⟩ : Shape).Idx → EReal
  db : (⟨1, ![361]⟩ : Shape).Idx → EReal
  w2 : (⟨2, ![256, 256]⟩ : Shape).Idx → EReal
  b2 : (⟨1, ![256]⟩ : Shape).Idx → EReal
  mean2 : (⟨1, ![256]⟩ : Shape).Idx → EReal
  var2 : (⟨1, ![256]⟩ : Shape).Idx → EReal
  beta2 : (⟨1, ![256]⟩ : Shape).Idx → EReal

/-- The variance offset ε both programs spell: the binary32 number nearest 0.001. -/
def eps : EReal := Ideal.ofBits .f32 0x3A83126F#32

/-- Board row of the flattened position `p = 19·h + w`. -/
def hOf (p : Fin 361) : Fin 19 := ⟨p.val / 19, by have := p.isLt; omega⟩
/-- Board column of the flattened position. -/
def wOf (p : Fin 361) : Fin 19 := ⟨p.val % 19, Nat.mod_lt _ (by decide)⟩
/-- The flattened position of row `h`, column `w`. -/
def pOf (h w : Fin 19) : Fin 361 := ⟨h.val * 19 + w.val, by have := h.isLt; have := w.isLt; omega⟩

/-- The normalisation scale of the first block at output channel `d`: `rsqrt(var1 d + ε)`. -/
def s1 (A : Args) (d : Fin 256) : EReal := Ideal.rsqrt (A.var1 (ix1 d) + eps)
/-- The normalisation scale of the second block. -/
def s2 (A : Args) (d : Fin 256) : EReal := Ideal.rsqrt (A.var2 (ix1 d) + eps)

/-! ## Normalising after the mix -/

/-- First block at image `n`, board position `p`, channel `d`: mix, normalise, rectify. -/
def refH1 (A : Args) (n : Fin 256) (p : Fin 361) (d : Fin 256) : EReal :=
  max ((((∑ c : Fin 256, A.x (ix4 n (hOf p) (wOf p) c) * A.w1 (ix2 c d)) + A.b1 (ix1 d)) - A.mean1 (ix1 d)) * s1 A d
    + A.beta1 (ix1 d)) 0

/-- Dense mix over the board, per image and channel, rectified. -/
def refH2 (A : Args) (n : Fin 256) (c : Fin 256) (q : Fin 361) : EReal :=
  max ((∑ p : Fin 361, refH1 A n p c * A.dw (ix2 p q)) + A.db (ix1 q)) 0

/-- Second block at image `n`, board position `q`, channel `d`. -/
def refH3 (A : Args) (n : Fin 256) (q : Fin 361) (d : Fin 256) : EReal :=
  max ((((∑ c : Fin 256, refH2 A n c q * A.w2 (ix2 c d)) + A.b2 (ix1 d)) - A.mean2 (ix1 d)) * s2 A d
    + A.beta2 (ix1 d)) 0

/-- The block's result: the input plus the second block, on the board's own axes. -/
def refOut (A : Args) : (⟨4, ![256, 19, 19, 256]⟩ : Shape).Idx → EReal :=
  fun i => A.x i + refH3 A (i 0) (pOf (i 1) (i 2)) (i 3)

/-! ## The normalisation folded into the mix, the board flattened -/

/-- The image with its board flattened. -/
def xFlat (A : Args) (n : Fin 256) (p : Fin 361) (c : Fin 256) : EReal := A.x (ix4 n (hOf p) (wOf p) c)

/-- First block with the folded weights `w1 · s1` and the folded bias `b1 · s1 + (beta1 − mean1 · s1)`. -/
def kerH1 (A : Args) (n : Fin 256) (p : Fin 361) (d : Fin 256) : EReal :=
  max ((∑ c : Fin 256, xFlat A n p c * (A.w1 (ix2 c d) * s1 A d))
    + (A.b1 (ix1 d) * s1 A d + (A.beta1 (ix1 d) - A.mean1 (ix1 d) * s1 A d))) 0

/-- Dense mix from the left with the transposed matrix: row `q` of `dwᵀ` against column `c` of the first block. -/
def kerH2 (A : Args) (n : Fin 256) (q : Fin 361) (c : Fin 256) : EReal :=
  max ((∑ p : Fin 361, A.dw (ix2 p q) * kerH1 A n p c) + A.db (ix1 q)) 0

/-- Second block with folded weights and bias. -/
def kerH3 (A : Args) (n : Fin 256) (q : Fin 361) (d : Fin 256) : EReal :=
  max ((∑ c : Fin 256, kerH2 A n q c * (A.w2 (ix2 c d) * s2 A d))
    + (A.b2 (ix1 d) * s2 A d + (A.beta2 (ix1 d) - A.mean2 (ix1 d) * s2 A d))) 0

/-- The result on the flattened board (256 × 361 × 256). -/
def kerFlat (A : Args) : (⟨3, ![256, 361, 256]⟩ : Shape).Idx → EReal :=
  fun j => xFlat A (j 0) (j 1) (j 2) + kerH3 A (j 0) (j 1) (j 2)

/-- The result with the board unflattened again. -/
def kerOut (A : Args) : (⟨4, ![256, 19, 19, 256]⟩ : Shape).Idx → EReal :=
  fun i => kerFlat A (ix3 (i 0) (pOf (i 1) (i 2)) (i 3))

/-! ## One grid step of the folded reading: eight images at a time, every operand a loaded block

The operands here are whatever blocks a step is given — the image block (8 × 361 × 256), the folded weights, the biases
as a row (1 × 256) and as a column (361 × 1), the dense matrix ALREADY transposed (row `q`, column `p`). -/

/-- First block of image `j` of the step. -/
def blkH1 (x0 : (⟨3, ![8, 361, 256]⟩ : Shape).Idx → EReal) (w1 : (⟨2, ![256, 256]⟩ : Shape).Idx → EReal)
    (b1 : (⟨2, ![1, 256]⟩ : Shape).Idx → EReal) (j : Fin 8) (p : Fin 361) (d : Fin 256) : EReal :=
  max ((∑ c : Fin 256, x0 (ix3 j p c) * w1 (ix2 c d)) + b1 (ix2 (0 : Fin 1) d)) 0

/-- Dense mix from the left: row `q` of the transposed matrix against column `c` of the first block. -/
def blkH2 (x0 : (⟨3, ![8, 361, 256]⟩ : Shape).Idx → EReal) (w1 : (⟨2, ![256, 256]⟩ : Shape).Idx → EReal)
    (b1 : (⟨2, ![1, 256]⟩ : Shape).Idx → EReal) (wd : (⟨2, ![361, 361]⟩ : Shape).Idx → EReal)
    (bd : (⟨2, ![361, 1]⟩ : Shape).Idx → EReal) (j : Fin 8) (q : Fin 361) (c : Fin 256) : EReal :=
  max ((∑ p : Fin 361, wd (ix2 q p) * blkH1 x0 w1 b1 j p c) + bd (ix2 q (0 : Fin 1))) 0

/-- Second block of image `j` of the step. -/
def blkH3 (x0 : (⟨3, ![8, 361, 256]⟩ : Shape).Idx → EReal) (w1 : (⟨2, ![256, 256]⟩ : Shape).Idx → EReal)
    (b1 : (⟨2, ![1, 256]⟩ : Shape).Idx → EReal) (wd : (⟨2, ![361, 361]⟩ : Shape).Idx → EReal)
    (bd : (⟨2, ![361, 1]⟩ : Shape).Idx → EReal) (w2 : (⟨2, ![256, 256]⟩ : Shape).Idx → EReal)
    (b2 : (⟨2, ![1, 256]⟩ : Shape).Idx → EReal) (j : Fin 8) (q : Fin 361) (d : Fin 256) : EReal :=
  max ((∑ c : Fin 256, blkH2 x0 w1 b1 wd bd j q c * w2 (ix2 c d)) + b2 (ix2 (0 : Fin 1) d)) 0

/-- What the step leaves in its output block: each image plus its second block. -/
def blkOut (x0 : (⟨3, ![8, 361, 256]⟩ : Shape).Idx → EReal) (w1 : (⟨2, ![256, 256]⟩ : Shape).Idx → EReal)
    (b1 : (⟨2, ![1, 256]⟩ : Shape).Idx → EReal) (wd : (⟨2, ![361, 361]⟩ : Shape).Idx → EReal)
    (bd : (⟨2, ![361, 1]⟩ : Shape).Idx → EReal) (w2 : (⟨2, ![256, 256]⟩ : Shape).Idx → EReal)
    (b2 : (⟨2, ![1, 256]⟩ : Shape).Idx → EReal) : (⟨3, ![8, 361, 256]⟩ : Shape).Idx → EReal :=
  fun y => x0 y + blkH3 x0 w1 b1 wd bd w2 b2 (y 0) (y 1) (y 2)

/-! ## The domain on which the two readings agree -/

/-- An extended real that is a real number. -/
def IsReal (v : EReal) : Prop := ∃ r : ℝ, v = (r : EReal)

/-- Every entry of every input is a real number, and both variances are non-negative. -/
structure Args.Admissible (A : Args) : Prop where
  x : ∀ i, IsReal (A.x i)
  w1 : ∀ i, IsReal (A.w1 i)
  b1 : ∀ i, IsReal (A.b1 i)
  mean1 : ∀ i, IsReal (A.mean1 i)
  var1 : ∀ i, IsReal (A.var1 i)
  beta1 : ∀ i, IsReal (A.beta1 i)
  dw : ∀ i, IsReal (A.dw i)
  db : ∀ i, IsReal (A.db i)
  w2 : ∀ i, IsReal (A.w2 i)
  b2 : ∀ i, IsReal (A.b2 i)
  mean2 : ∀ i, IsReal (A.mean2 i)
  var2 : ∀ i, IsReal (A.var2 i)
  beta2 : ∀ i, IsReal (A.beta2 i)
  var1_nonneg : ∀ i, 0 ≤ A.var1 i
  var2_nonneg : ∀ i, 0 ≤ A.var2 i

end Cert.Spec

end
-- ==== Proof.Algebra.lean ====
/-
  The two readings of the residual block agree on admissible inputs.

  The variance offset is a positive real (its binary32 pattern is unfolded once, here). With a real non-negative
  variance the scale `rsqrt(var + ε)` is therefore a real number, and every intermediate quantity of both readings is
  the coercion of a real: finite sums, products, differences and maxima of reals. On reals multiplication distributes
  over the channel sum, which is the folding law
  `Σ_c x_c·(w_c·s) + (b·s + (β − μ·s)) = ((Σ_c x_c·w_c + b) − μ)·s + β`;
  it is proved in ℝ and transported along the coercion, because distributivity fails on the extended reals at the
  infinities. The three stages then agree one after the other (the dense mix only by commutativity of the product),
  and the flattened board position `19·h + w` gives back its row and column.

  The auxiliary lemmas live in the namespace `Cert.Spec.Algebra`; the two results, `eps_pos` and
  `kerOut_eq_refOut`, in `Cert.Spec`.
-/
import proofs.«102772_j32014686224994_1_alg».proof.Proof.Spec

noncomputable section

namespace Cert.Spec

open Idealize.ShloMosaic Idealize.ShloMosaic.ValueIdx
open scoped BigOperators

/-! ## The variance offset -/

/-- The variance offset is the positive real `2⁻¹⁰ · (1 + 201327 / 2²³)`. -/
theorem eps_pos : ∃ e : ℝ, 0 < e ∧ eps = (e : EReal) := by
  refine ⟨?e, ?_, ?_⟩
  case e => exact 2⁻¹ ^ 10 * (1 + 201327 / 2 ^ 23)
  · positivity
  · simp [eps, Ideal.ofBits, Ideal.ieee, -EReal.coe_mul]
    norm_num

namespace Algebra

/-! ## Real numbers inside the extended reals -/

/-- A real extended real is the coercion of its real part. -/
theorem isReal_eq_coe {v : EReal} (h : IsReal v) : v = ((v.toReal : ℝ) : EReal) := by
  obtain ⟨r, rfl⟩ := h
  rw [EReal.toReal_coe]

theorem isReal_zero : IsReal 0 := ⟨0, rfl⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_sub {a b : EReal} (ha : IsReal a) (hb : IsReal b) : IsReal (a - b) := by
  obtain ⟨x, rfl⟩ := ha
  obtain ⟨y, rfl⟩ := hb
  exact ⟨x - y, (EReal.coe_sub x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

theorem isReal_max {a b : EReal} (ha : IsReal a) (hb : IsReal b) : IsReal (max a b) := by
  rcases le_total a b with h | h
  · rwa [max_eq_right h]
  · rwa [max_eq_left h]

/-- A finite sum of reals is real. -/
theorem isReal_sum {ι : Type*} (s : Finset ι) (f : ι → EReal) (h : ∀ i, IsReal (f i)) :
    IsReal (∑ i ∈ s, f i) := by
  classical
  induction s using Finset.induction_on with
  | empty => simpa using isReal_zero
  | insert a s ha ih => rw [Finset.sum_insert ha]; exact isReal_add (h a) ih

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The folding law -/

/-- Folding a scale `s`, a shift `μ` and an offset `β` into the weights and the bias of a mix, for real data. -/
theorem fold_law {ι : Type*} [Fintype ι] (x w : ι → EReal) (b μ β s : EReal)
    (hx : ∀ c, IsReal (x c)) (hw : ∀ c, IsReal (w c)) (hb : IsReal b) (hμ : IsReal μ) (hβ : IsReal β)
    (hs : IsReal s) :
    (∑ c, x c * (w c * s)) + (b * s + (β - μ * s)) = (((∑ c, x c * w c) + b) - μ) * s + β := by
  obtain ⟨xr, rfl⟩ : ∃ xr : ι → ℝ, x = fun c => (xr c : EReal) :=
    ⟨fun c => (x c).toReal, funext fun c => isReal_eq_coe (hx c)⟩
  obtain ⟨wr, rfl⟩ : ∃ wr : ι → ℝ, w = fun c => (wr c : EReal) :=
    ⟨fun c => (w c).toReal, funext fun c => isReal_eq_coe (hw c)⟩
  obtain ⟨b, rfl⟩ := hb
  obtain ⟨μ, rfl⟩ := hμ
  obtain ⟨β, rfl⟩ := hβ
  obtain ⟨s, rfl⟩ := hs
  have key : (∑ c, xr c * (wr c * s)) + (b * s + (β - μ * s)) = (((∑ c, xr c * wr c) + b) - μ) * s + β := by
    have h : ∑ c, xr c * (wr c * s) = (∑ c, xr c * wr c) * s := by
      rw [Finset.sum_mul]
      exact Finset.sum_congr rfl fun c _ => by ring
    rw [h]
    ring
  have key' := congrArg (fun r : ℝ => (r : EReal)) key
  simpa only [EReal.coe_add, EReal.coe_mul, EReal.coe_sub, coe_sum] using key'

/-! ## The scales are real -/

/-- The reciprocal square root of a real non-negative number plus the offset is a real number. -/
theorem rsqrt_real {v : EReal} (hv : IsReal v) (h0 : 0 ≤ v) : IsReal (Ideal.rsqrt (v + eps)) := by
  obtain ⟨r, rfl⟩ := hv
  obtain ⟨e, he, hE⟩ := eps_pos
  have hr : 0 ≤ r := EReal.coe_nonneg.mp h0
  have hpos : 0 < r + e := add_pos_of_nonneg_of_pos hr he
  rw [hE, ← EReal.coe_add, Ideal.rsqrt_coe, if_neg (not_lt.mpr hpos.le), if_neg hpos.ne']
  exact ⟨_, rfl⟩

theorem s1_real (A : Args) (hA : A.Admissible) (d : Fin 256) : IsReal (s1 A d) :=
  rsqrt_real (hA.var1 _) (hA.var1_nonneg _)

theorem s2_real (A : Args) (hA : A.Admissible) (d : Fin 256) : IsReal (s2 A d) :=
  rsqrt_real (hA.var2 _) (hA.var2_nonneg _)

/-! ## The three stages -/

theorem refH1_real (A : Args) (hA : A.Admissible) (n : Fin 256) (p : Fin 361) (d : Fin 256) :
    IsReal (refH1 A n p d) := by
  unfold refH1
  exact isReal_max (isReal_add (isReal_mul (isReal_sub (isReal_add
    (isReal_sum _ _ fun c => isReal_mul (hA.x _) (hA.w1 _)) (hA.b1 _)) (hA.mean1 _)) (s1_real A hA d))
    (hA.beta1 _)) isReal_zero

theorem kerH1_eq (A : Args) (hA : A.Admissible) (n : Fin 256) (p : Fin 361) (d : Fin 256) :
    kerH1 A n p d = refH1 A n p d := by
  unfold kerH1 refH1 xFlat
  exact congrArg (fun t => max t 0)
    (fold_law (fun c => A.x (ix4 n (hOf p) (wOf p) c)) (fun c => A.w1 (ix2 c d)) _ _ _ _
      (fun _ => hA.x _) (fun _ => hA.w1 _) (hA.b1 _) (hA.mean1 _) (hA.beta1 _) (s1_real A hA d))

theorem kerH2_eq (A : Args) (hA : A.Admissible) (n : Fin 256) (q : Fin 361) (c : Fin 256) :
    kerH2 A n q c = refH2 A n c q := by
  unfold kerH2 refH2
  refine congrArg (fun t => max (t + A.db (ix1 q)) 0) ?_
  exact Finset.sum_congr rfl fun p _ => by rw [kerH1_eq A hA, mul_comm]

theorem refH2_real (A : Args) (hA : A.Admissible) (n : Fin 256) (c : Fin 256) (q : Fin 361) :
    IsReal (refH2 A n c q) := by
  unfold refH2
  exact isReal_max (isReal_add (isReal_sum _ _ fun p => isReal_mul (refH1_real A hA n p c) (hA.dw _))
    (hA.db _)) isReal_zero

theorem kerH3_eq (A : Args) (hA : A.Admissible) (n : Fin 256) (q : Fin 361) (d : Fin 256) :
    kerH3 A n q d = refH3 A n q d := by
  unfold kerH3 refH3
  simp only [kerH2_eq A hA]
  exact congrArg (fun t => max t 0)
    (fold_law (fun c => refH2 A n c q) (fun c => A.w2 (ix2 c d)) _ _ _ _
      (fun c => refH2_real A hA n c q) (fun _ => hA.w2 _) (hA.b2 _) (hA.mean2 _) (hA.beta2 _) (s2_real A hA d))

/-! ## The board position -/

theorem hOf_pOf (h w : Fin 19) : hOf (pOf h w) = h := by
  apply Fin.ext
  simp only [hOf, pOf]
  have := w.isLt
  omega

theorem wOf_pOf (h w : Fin 19) : wOf (pOf h w) = w := by
  apply Fin.ext
  simp only [wOf, pOf]
  have := w.isLt
  omega

/-- The two results agree at the board position of row `h`, column `w`. -/
theorem kerOut_ix4 (A : Args) (hA : A.Admissible) (n : Fin 256) (h w : Fin 19) (c : Fin 256) :
    kerOut A (ix4 n h w c) = refOut A (ix4 n h w c) := by
  show xFlat A n (pOf h w) c + kerH3 A n (pOf h w) c = A.x (ix4 n h w c) + refH3 A n (pOf h w) c
  rw [kerH3_eq A hA]
  unfold xFlat
  rw [hOf_pOf, wOf_pOf]

end Algebra

/-! ## The result -/

/-- On admissible inputs the folded, flattened reading computes the block's result. -/
theorem kerOut_eq_refOut (A : Args) (hA : A.Admissible) : kerOut A = refOut A := by
  funext i
  obtain ⟨n, h, w, c, rfl⟩ : ∃ n h w c, i = ix4 n h w c := ⟨_, _, _, _, eq_ix4 i⟩
  exact Algebra.kerOut_ix4 A hA n h w c

end Cert.Spec

end
-- ==== Proof.PreDecode.lean ====
/-
  The precondition read back. The printed precondition is the conjunction of thirteen "every entry has absolute value
  strictly below +∞" tests, one per input array, and two "every entry is at least zero" tests on the two variance
  vectors. Over the extended reals an entry whose absolute value lies strictly below +∞ is neither +∞ nor −∞, hence a
  real number; and an entry that compares at least the zero word is non-negative. So a precondition that evaluates to
  one makes the thirteen arrays admissible: every entry a real, both variances non-negative.
-/
import proofs.«102772_j32014686224994_1_alg».proof.Proof.Spec
import proofs.«102772_j32014686224994_1_alg».proof.Pre_finite_inputs
import proofs.«102772_j32014686224994_1_alg».proof.Proof.Gen.Pre_finite_inputs
import Idealize.ShloMosaic.Lib.ReduceAll
import Idealize.ShloMosaic.Lib.StableHlo.Predicate
import Idealize.ShloMosaic.PureOps.Ideal.Laws

namespace Cert.PreDecode

open Idealize.ShloMosaic Idealize.ShloMosaic.ValueIdx

/-- The scalar shape has one index. -/
instance subsingleton_scalar : Subsingleton (⟨0, ![]⟩ : Shape).Idx := ⟨fun a b => funext fun d => d.elim0⟩

/-- The binary32 word with all exponent bits set and no fraction is +∞. -/
theorem ofBits_inf_f32 : Ideal.ofBits .f32 0x7F800000#32 = (⊤ : EReal) := by
  simp [Ideal.ofBits, Ideal.ieee]

/-- An extended real whose absolute value compares strictly below +∞ is a real number. -/
theorem isReal_of_abs_lt_top (v : EReal)
    (h : Ideal.cmp .olt (max v (-v)) (Ideal.ofBits .f32 0x7F800000#32) = 1#1) : Cert.Spec.IsReal v := by
  rw [ofBits_inf_f32] at h
  induction v using EReal.rec with
  | bot => simp [Ideal.cmp] at h
  | coe r => exact ⟨r, rfl⟩
  | top => simp [Ideal.cmp] at h

/-- An extended real that compares at least the zero word is non-negative. -/
theorem nonneg_of_cmp_oge (v : EReal)
    (h : Ideal.cmp .oge v (Ideal.ofBits .f32 0x00000000#32) = 1#1) : 0 ≤ v := by
  rw [Ideal.ofBits_zero_f32] at h
  have h' : BitVec.ofBool (decide (0 ≤ v)) = 1#1 := h
  exact of_decide_eq_true ((StableHlo.Predicate.ofBool_eq_one_iff _).1 h')

/-- "All entries have absolute value strictly below +∞", over any shape reduced to a scalar: every entry is real. -/
theorem all_abs_lt_top {s : Shape} {axes : List (Fin s.rank)} (x : FVec Ideal s .f32)
    (bc : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
        (cmpf .olt (Host.absf x) (broadcastInDim s ![] bc (constant (F := Ideal) ⟨0, ![]⟩ .f32 0x7F800000#32)))
        (constantI ⟨0, ![]⟩ 1 1#1) hr hu ix0 = 1#1) :
    ∀ i, Cert.Spec.IsReal (x i) := by
  intro i
  have hi := Host.reduce_andi_all _ _ hr hu ix0 e i
  exact isReal_of_abs_lt_top (x i) hi

/-- "All entries are at least zero", over any shape reduced to a scalar: every entry is non-negative. -/
theorem all_oge_zero {s : Shape} {axes : List (Fin s.rank)} (x : FVec Ideal s .f32)
    (bc : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
        (cmpf .oge x (broadcastInDim s ![] bc (constant (F := Ideal) ⟨0, ![]⟩ .f32 0x00000000#32)))
        (constantI ⟨0, ![]⟩ 1 1#1) hr hu ix0 = 1#1) :
    ∀ i, 0 ≤ x i := by
  intro i
  have hi := Host.reduce_andi_all _ _ hr hu ix0 e i
  exact nonneg_of_cmp_oge (x i) hi

open Cert.Pre_finite_inputs in
/-- The precondition evaluating to one makes the thirteen arrays admissible. -/
theorem admissible_of_pre [Cert.Pre_finite_inputs.Facts] (x0 : FVec Ideal Cert.Pre_finite_inputs.S256x19x19x256 .f32) (x1 : FVec Ideal Cert.Pre_finite_inputs.S256x256 .f32) (x2 x3 x4 x5 : FVec Ideal Cert.Pre_finite_inputs.S256 .f32) (x6 : FVec Ideal Cert.Pre_finite_inputs.S361x361 .f32) (x7 : FVec Ideal Cert.Pre_finite_inputs.S361 .f32) (x8 : FVec Ideal Cert.Pre_finite_inputs.S256x256 .f32) (x9 x10 x11 x12 : FVec Ideal Cert.Pre_finite_inputs.S256 .f32)
    (h : Cert.Pre_finite_inputs.fn (F := Ideal) x0 x1 x2 x3 x4 x5 x6 x7 x8 x9 x10 x11 x12 = fun _ => 1#1) :
    (Cert.Spec.Args.mk x0 x1 x2 x3 x4 x5 x6 x7 x8 x9 x10 x11 x12).Admissible := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, v1⟩, v2⟩ := h0
  exact
    { x := all_abs_lt_top x0 _ _ _ e0
      w1 := all_abs_lt_top x1 _ _ _ e1
      b1 := all_abs_lt_top x2 _ _ _ e2
      mean1 := all_abs_lt_top x3 _ _ _ e3
      var1 := all_abs_lt_top x4 _ _ _ e4
      beta1 := all_abs_lt_top x5 _ _ _ e5
      dw := all_abs_lt_top x6 _ _ _ e6
      db := all_abs_lt_top x7 _ _ _ e7
      w2 := all_abs_lt_top x8 _ _ _ e8
      b2 := all_abs_lt_top x9 _ _ _ e9
      mean2 := all_abs_lt_top x10 _ _ _ e10
      var2 := all_abs_lt_top x11 _ _ _ e11
      beta2 := all_abs_lt_top x12 _ _ _ e12
      var1_nonneg := all_oge_zero x4 _ _ _ v1
      var2_nonneg := all_oge_zero x11 _ _ _ v2 }

end Cert.PreDecode
-- ==== Proof.RefValue.lean ====
/-
  The reference computation of the residual block, read one operation at a time, is the index-by-index statement
  `Cert.Spec.refOut`: at every image `n`, board row `h`, column `w` and channel `d` the program's result is the input
  plus the second normalised channel mix of the rectified dense mix over the flattened board of the first normalised
  channel mix. The proof goes through the three blocks in order — the first mix at explicit coordinates, its reading on
  the flattened board (position `p` sits at row `p / 19`, column `p % 19`), the dense mix, the board unflattened again
  (row `h`, column `w` sit at position `19·h + w`), and the second mix — each stage by the per-operation reading
  lemmas and the identification of the composed indices with explicit coordinates.
-/
import proofs.«102772_j32014686224994_1_alg».proof.Proof.Spec
import proofs.«102772_j32014686224994_1_alg».proof.Proof.Gen.ReferenceIdeal.Read

noncomputable section

namespace Cert.ReferenceIdeal.RefValue

open Cert.ReferenceIdeal Cert.ReferenceIdeal.Read Idealize.ShloMosaic Idealize.ShloMosaic.ValueIdx Cert.Spec
open scoped BigOperators

/-- The first normalised mix at explicit coordinates: the program's stage 16 at `(n, h, w, d)`. -/
theorem bn1_apply (x0 : (⟨S256x19x19x256, .f32⟩ : BufTy).Contents (Elt Ideal)) (x1 : (⟨S256x256, .f32⟩ : BufTy).Contents (Elt Ideal))
    (x2 x3 x4 x5 : (⟨S256, .f32⟩ : BufTy).Contents (Elt Ideal)) (n : Fin 256) (h w : Fin 19) (d : Fin 256) :
    val_main_v16 (F := Ideal) x0 x1 x2 x3 x4 x5 (ix4 n h w d)
      = max ((((∑ c : Fin 256, x0 (ix4 n h w c) * x1 (ix2 c d)) + x2 (ix1 d)) - x3 (ix1 d)) * Ideal.rsqrt (x4 (ix1 d) + eps)
          + x5 (ix1 d)) 0 := by
  have e2 : idx_main_v1 (idx_main_v2 (ix4 n h w d)) = ix1 d := funext fun a => match a with | ⟨0, _⟩ => rfl
  have e5 : idx_main_v4 (idx_main_v5 (ix4 n h w d)) = ix1 d := funext fun a => match a with | ⟨0, _⟩ => rfl
  have e11 : idx_main_v10 (idx_main_v11 (ix4 n h w d)) = ix1 d := funext fun a => match a with | ⟨0, _⟩ => rfl
  have e14 : idx_main_v13 (idx_main_v14 (ix4 n h w d)) = ix1 d := funext fun a => match a with | ⟨0, _⟩ => rfl
  have el : ∀ k : Fin 256, lidx_main_v0 (ix4 n h w d) k = ix4 n h w k := fun k => funext fun a =>
    match a with | ⟨0, _⟩ => rfl | ⟨1, _⟩ => rfl | ⟨2, _⟩ => rfl | ⟨3, _⟩ => rfl
  have er : ∀ k : Fin 256, ridx_main_v0 (ix4 n h w d) k = ix2 k d := fun k => funext fun a =>
    match a with | ⟨0, _⟩ => rfl | ⟨1, _⟩ => rfl
  rw [val_main_v16_apply, val_main_v15_apply, val_main_v12_apply, val_main_v6_apply, val_main_v3_apply, val_main_v0_apply,
    val_main_v2_apply, val_main_v1_apply, val_main_v5_apply, val_main_v4_apply, val_main_v11_apply, val_main_v10_apply,
    val_main_v9_apply, val_main_v8_apply, val_main_v7_apply, val_main_cst_apply, val_main_v14_apply, val_main_v13_apply,
    val_main_call0_v0_apply, val_main_call0_cst_apply, e2, e5, e11, e14]
  simp only [el, er, Ideal.maximumf_def, Ideal.addf_def, Ideal.mulf_def, Ideal.subf_def, Ideal.hostUnary_rsqrt_def,
    Ideal.ofBits_def, Ideal.ofBits_zero_f32, eps]

section Stages

variable (x0 : (⟨S256x19x19x256, .f32⟩ : BufTy).Contents (Elt Ideal)) (x1 : (⟨S256x256, .f32⟩ : BufTy).Contents (Elt Ideal))
  (x2 x3 x4 x5 : (⟨S256, .f32⟩ : BufTy).Contents (Elt Ideal)) (x6 : (⟨S361x361, .f32⟩ : BufTy).Contents (Elt Ideal))
  (x7 : (⟨S361, .f32⟩ : BufTy).Contents (Elt Ideal)) (x8 : (⟨S256x256, .f32⟩ : BufTy).Contents (Elt Ideal))
  (x9 x10 x11 x12 : (⟨S256, .f32⟩ : BufTy).Contents (Elt Ideal))

/-- The first block on the flattened board: stage 18 at `(n, c, p)` reads stage 16 at row `p / 19`, column `p % 19`,
    channel `c`, which is `refH1` at `(n, p, c)`. -/
theorem h1_apply (n c : Fin 256) (p : Fin 361) :
    val_main_v18 (F := Ideal) x0 x1 x2 x3 x4 x5 (ix3 n c p)
      = refH1 ⟨x0, x1, x2, x3, x4, x5, x6, x7, x8, x9, x10, x11, x12⟩ n p c := by
  have hn := n.isLt
  have hc := c.isLt
  have hp := p.isLt
  have e : idx_main_v17 (idx_main_v18 (ix3 n c p)) = ix4 n (hOf p) (wOf p) c := funext fun a => Fin.ext (by
    match a with
    | ⟨0, _⟩ => show ((n.val * 256 + c.val) * 361 + p.val) / 92416 = n.val; omega
    | ⟨1, _⟩ => show ((n.val * 256 + c.val) * 361 + p.val) / 19 % 19 = p.val / 19; omega
    | ⟨2, _⟩ => show ((n.val * 256 + c.val) * 361 + p.val) % 19 = p.val % 19; omega
    | ⟨3, _⟩ => show ((n.val * 256 + c.val) * 361 + p.val) / 361 % 256 = c.val; omega)
  rw [val_main_v18_apply, val_main_v17_apply, e, bn1_apply]
  rfl

/-- The dense mix over the board: stage 23 at `(n, c, q)` is `refH2` there. -/
theorem h2_apply (n c : Fin 256) (q : Fin 361) :
    val_main_v23 (F := Ideal) x0 x1 x2 x3 x4 x5 x6 x7 (ix3 n c q)
      = refH2 ⟨x0, x1, x2, x3, x4, x5, x6, x7, x8, x9, x10, x11, x12⟩ n c q := by
  have e21 : idx_main_v20 (idx_main_v21 (ix3 n c q)) = ix1 q := funext fun a => match a with | ⟨0, _⟩ => rfl
  have el : ∀ k : Fin 361, lidx_main_v19 (ix3 n c q) k = ix3 n c k := fun k => funext fun a =>
    match a with | ⟨0, _⟩ => rfl | ⟨1, _⟩ => rfl | ⟨2, _⟩ => rfl
  have er : ∀ k : Fin 361, ridx_main_v19 (ix3 n c q) k = ix2 k q := fun k => funext fun a =>
    match a with | ⟨0, _⟩ => rfl | ⟨1, _⟩ => rfl
  rw [val_main_v23_apply, val_main_v22_apply, val_main_v19_apply, val_main_v21_apply, val_main_v20_apply,
    val_main_call1_v0_apply, val_main_call1_cst_apply, e21]
  simp only [el, er, h1_apply x0 x1 x2 x3 x4 x5 x6 x7 x8 x9 x10 x11 x12, Ideal.maximumf_def, Ideal.addf_def,
    Ideal.ofBits_def, Ideal.ofBits_zero_f32]
  rfl

/-- The board unflattened and the channel moved back: stage 25 at `(n, h, w, c)` is `refH2` at `(n, c, 19·h + w)`. -/
theorem h2_board_apply (n : Fin 256) (h w : Fin 19) (c : Fin 256) :
    val_main_v25 (F := Ideal) x0 x1 x2 x3 x4 x5 x6 x7 (ix4 n h w c)
      = refH2 ⟨x0, x1, x2, x3, x4, x5, x6, x7, x8, x9, x10, x11, x12⟩ n c (pOf h w) := by
  have hn := n.isLt
  have hc := c.isLt
  have hh := h.isLt
  have hw := w.isLt
  have e : idx_main_v24 (idx_main_v25 (ix4 n h w c)) = ix3 n c (pOf h w) := funext fun a => Fin.ext (by
    match a with
    | ⟨0, _⟩ => show (((n.val * 256 + c.val) * 19 + h.val) * 19 + w.val) / 92416 = n.val; omega
    | ⟨1, _⟩ => show (((n.val * 256 + c.val) * 19 + h.val) * 19 + w.val) / 361 % 256 = c.val; omega
    | ⟨2, _⟩ => show (((n.val * 256 + c.val) * 19 + h.val) * 19 + w.val) % 361 = h.val * 19 + w.val; omega)
  rw [val_main_v25_apply, val_main_v24_apply, e, h2_apply x0 x1 x2 x3 x4 x5 x6 x7 x8 x9 x10 x11 x12]

/-- The second normalised mix: stage 42 at `(n, h, w, d)` is `refH3` at `(n, 19·h + w, d)`. -/
theorem h3_apply (n : Fin 256) (h w : Fin 19) (d : Fin 256) :
    val_main_v42 (F := Ideal) x0 x1 x2 x3 x4 x5 x6 x7 x8 x9 x10 x11 x12 (ix4 n h w d)
      = refH3 ⟨x0, x1, x2, x3, x4, x5, x6, x7, x8, x9, x10, x11, x12⟩ n (pOf h w) d := by
  have e28 : idx_main_v27 (idx_main_v28 (ix4 n h w d)) = ix1 d := funext fun a => match a with | ⟨0, _⟩ => rfl
  have e31 : idx_main_v30 (idx_main_v31 (ix4 n h w d)) = ix1 d := funext fun a => match a with | ⟨0, _⟩ => rfl
  have e37 : idx_main_v36 (idx_main_v37 (ix4 n h w d)) = ix1 d := funext fun a => match a with | ⟨0, _⟩ => rfl
  have e40 : idx_main_v39 (idx_main_v40 (ix4 n h w d)) = ix1 d := funext fun a => match a with | ⟨0, _⟩ => rfl
  have el : ∀ k : Fin 256, lidx_main_v26 (ix4 n h w d) k = ix4 n h w k := fun k => funext fun a =>
    match a with | ⟨0, _⟩ => rfl | ⟨1, _⟩ => rfl | ⟨2, _⟩ => rfl | ⟨3, _⟩ => rfl
  have er : ∀ k : Fin 256, ridx_main_v26 (ix4 n h w d) k = ix2 k d := fun k => funext fun a =>
    match a with | ⟨0, _⟩ => rfl | ⟨1, _⟩ => rfl
  rw [val_main_v42_apply, val_main_v41_apply, val_main_v38_apply, val_main_v32_apply, val_main_v29_apply, val_main_v26_apply,
    val_main_v28_apply, val_main_v27_apply, val_main_v31_apply, val_main_v30_apply, val_main_v37_apply, val_main_v36_apply,
    val_main_v35_apply, val_main_v34_apply, val_main_v33_apply, val_main_cst_0_apply, val_main_v40_apply, val_main_v39_apply,
    val_main_call2_v0_apply, val_main_call2_cst_apply, e28, e31, e37, e40]
  simp only [el, er, h2_board_apply x0 x1 x2 x3 x4 x5 x6 x7 x8 x9 x10 x11 x12, Ideal.maximumf_def, Ideal.addf_def,
    Ideal.mulf_def, Ideal.subf_def, Ideal.hostUnary_rsqrt_def, Ideal.ofBits_def, Ideal.ofBits_zero_f32]
  rfl

end Stages

/-- The reference program's result is `refOut` of its thirteen arguments. -/
theorem val_eq_refOut (x0 : (⟨S256x19x19x256, .f32⟩ : BufTy).Contents (Elt Ideal)) (x1 : (⟨S256x256, .f32⟩ : BufTy).Contents (Elt Ideal)) (x2 x3 x4 x5 : (⟨S256, .f32⟩ : BufTy).Contents (Elt Ideal)) (x6 : (⟨S361x361, .f32⟩ : BufTy).Contents (Elt Ideal)) (x7 : (⟨S361, .f32⟩ : BufTy).Contents (Elt Ideal)) (x8 : (⟨S256x256, .f32⟩ : BufTy).Contents (Elt Ideal)) (x9 x10 x11 x12 : (⟨S256, .f32⟩ : BufTy).Contents (Elt Ideal)) :
    Cert.ReferenceIdeal.Read.val_main_v43 (F := Ideal) x0 x1 x2 x3 x4 x5 x6 x7 x8 x9 x10 x11 x12 = Cert.Spec.refOut ⟨x0, x1, x2, x3, x4, x5, x6, x7, x8, x9, x10, x11, x12⟩ := by
  have key : ∀ (n : Fin 256) (h w : Fin 19) (d : Fin 256),
      val_main_v43 (F := Ideal) x0 x1 x2 x3 x4 x5 x6 x7 x8 x9 x10 x11 x12 (ix4 n h w d)
        = refOut ⟨x0, x1, x2, x3, x4, x5, x6, x7, x8, x9, x10, x11, x12⟩ (ix4 n h w d) := fun n h w d => by
    rw [val_main_v43_apply, h3_apply x0 x1 x2 x3 x4 x5 x6 x7 x8 x9 x10 x11 x12]
    rfl
  funext i
  rw [eq_ix4 i]
  exact key _ _ _ _

end Cert.ReferenceIdeal.RefValue

end
-- ==== Proof.KerHost.lean ====
/-
  The operands of the kernel launch as the region finds them, read at an index.

  Before the launch the host folds each normalisation into its channel mix: with s = rsqrt(var + ε) per output channel,
  the weights become w · s (column d scaled by s d), the bias b · s + (beta − mean · s), laid out as one row; it transposes
  the dense matrix, lays the dense bias out as a column, and flattens the 19 × 19 board of the image into 361 positions
  (position p is row p / 19, column p % 19). Each of the seven arrays is read here at an explicit index, in terms of the
  thirteen input arrays, and the launch's output, unflattened again, is read back on the board's axes.
-/
import proofs.«102772_j32014686224994_1_alg».proof.Proof.Spec
import proofs.«102772_j32014686224994_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.Spec

/-! ## The folding operations as functions of their operands -/

/-- The scale vector `rsqrt(var + ε)`. -/
def scaleVec (var : FVec Ideal S256 .f32) : FVec Ideal S256 .f32 :=
  Host.rsqrt (F := Ideal) (addf var (broadcastInDim S256 ![] bcast_S_S256 (constant (F := Ideal) S_ .f32 0x3A83126F#32)))

theorem scaleVec_apply (var : FVec Ideal S256 .f32) (d : Fin 256) :
    scaleVec var (ix1 d) = Ideal.rsqrt (var (ix1 d) + Cert.Spec.eps) := rfl

/-- The folded weights: column `d` of `w` times the scale of channel `d`. -/
def foldW (w : FVec Ideal S256x256 .f32) (var : FVec Ideal S256 .f32) : FVec Ideal S256x256 .bf16 :=
  truncf (F := Ideal) .bf16 (mulf w (broadcastInDim S256x256 ![0, 1] bcast_S1x256_S256x256_0_1
    (broadcastInDim S1x256 ![1] bcast_S256_S1x256_1 (scaleVec var)))) bitsLt_bf16_f32

theorem foldW_apply (w : FVec Ideal S256x256 .f32) (var : FVec Ideal S256 .f32) (a d : Fin 256) :
    foldW w var (ix2 a d) = w (ix2 a d) * Ideal.rsqrt (var (ix1 d) + Cert.Spec.eps) := by
  show w (ix2 a d) * (broadcastInDim S256x256 ![0, 1] bcast_S1x256_S256x256_0_1
    (broadcastInDim S1x256 ![1] bcast_S256_S1x256_1 (scaleVec var))) (ix2 a d) = _
  rw [broadcastInDim_apply _ bcast_S1x256_S256x256_0_1 _ (ix2 a d) (ix2 (0 : Fin 1) d) (fun x => match x with
      | ⟨0, _⟩ => by show 0 = if (1 : Nat) = 1 then 0 else a.val; rw [if_pos rfl]
      | ⟨1, _⟩ => by show d.val = if (256 : Nat) = 1 then 0 else d.val; rw [if_neg (by decide)]),
    broadcastInDim_apply _ bcast_S256_S1x256_1 _ (ix2 (0 : Fin 1) d) (ix1 d) (fun x => match x with
      | ⟨0, _⟩ => by show d.val = if (256 : Nat) = 1 then 0 else d.val; rw [if_neg (by decide)]),
    scaleVec_apply]

/-- The folded bias as one row: `b · s + (beta − mean · s)`. -/
def foldB (b mean var beta : FVec Ideal S256 .f32) : FVec Ideal S1x256 .f32 :=
  shapeCast S1x256 (addf (F := Ideal) (mulf b (scaleVec var)) (subf beta (mulf mean (scaleVec var)))) shapeCasts_S256_S1x256

theorem foldB_apply (b mean var beta : FVec Ideal S256 .f32) (d : Fin 256) :
    foldB b mean var beta (ix2 (0 : Fin 1) d)
      = b (ix1 d) * Ideal.rsqrt (var (ix1 d) + Cert.Spec.eps)
        + (beta (ix1 d) - mean (ix1 d) * Ideal.rsqrt (var (ix1 d) + Cert.Spec.eps)) := by
  unfold foldB
  rw [shapeCast_apply _ shapeCasts_S256_S1x256 (ix2 (0 : Fin 1) d) (ix1 d)
    (by rw [Shape.rowMajor_val_one, Shape.rowMajor_val_two]; show d.val = 0 * 256 + d.val; omega)]
  rfl

/-- The dense matrix transposed (and narrowed, which changes no value here). -/
def dwT (dw : FVec Ideal S361x361 .f32) : FVec Ideal S361x361 .bf16 :=
  truncf (F := Ideal) .bf16 (transpose S361x361 [1, 0] dw transposes_S361x361_S361x361_1_0) bitsLt_bf16_f32

theorem dwT_apply (dw : FVec Ideal S361x361 .f32) (q p : Fin 361) : dwT dw (ix2 q p) = dw (ix2 p q) := by
  show transpose S361x361 [1, 0] dw transposes_S361x361_S361x361_1_0 (ix2 q p) = _
  exact transpose_apply [1, 0] dw transposes_S361x361_S361x361_1_0 (ix2 q p) (ix2 p q) (fun b => match b with
    | ⟨0, _⟩ => rfl
    | ⟨1, _⟩ => rfl)

/-- The dense bias as a column. -/
def dbCol (db : FVec Ideal S361 .f32) : FVec Ideal S361x1 .f32 := shapeCast S361x1 db shapeCasts_S361_S361x1

theorem dbCol_apply (db : FVec Ideal S361 .f32) (q : Fin 361) : dbCol db (ix2 q (0 : Fin 1)) = db (ix1 q) := by
  unfold dbCol
  exact shapeCast_apply _ shapeCasts_S361_S361x1 (ix2 q (0 : Fin 1)) (ix1 q)
    (by rw [Shape.rowMajor_val_one, Shape.rowMajor_val_two]; show q.val = q.val * 1 + 0; omega)

/-- The image with its board flattened. -/
def xFlatV (x : FVec Ideal S256x19x19x256 .f32) : FVec Ideal S256x361x256 .f32 :=
  shapeCast S256x361x256 x shapeCasts_S256x19x19x256_S256x361x256

theorem xFlatV_apply (x : FVec Ideal S256x19x19x256 .f32) (n : Fin 256) (p : Fin 361) (c : Fin 256) :
    xFlatV x (ix3 n p c) = x (ix4 n (hOf p) (wOf p) c) := by
  unfold xFlatV
  exact shapeCast_apply _ shapeCasts_S256x19x19x256_S256x361x256 (ix3 n p c) (ix4 n (hOf p) (wOf p) c)
    (by rw [Shape.rowMajor_val_four, Shape.rowMajor_val_three]
        have hp := p.isLt
        show ((n.val * 19 + p.val / 19) * 19 + p.val % 19) * 256 + c.val = (n.val * 361 + p.val) * 256 + c.val
        omega)

/-- The launch's output unflattened: the board's axes again. -/
def unflat (o : FVec Ideal S256x361x256 .f32) : FVec Ideal S256x19x19x256 .f32 :=
  shapeCast S256x19x19x256 o shapeCasts_S256x361x256_S256x19x19x256

theorem unflat_apply (o : FVec Ideal S256x361x256 .f32) (n : Fin 256) (h w : Fin 19) (d : Fin 256) :
    unflat o (ix4 n h w d) = o (ix3 n (pOf h w) d) := by
  unfold unflat
  exact shapeCast_apply _ shapeCasts_S256x361x256_S256x19x19x256 (ix4 n h w d) (ix3 n (pOf h w) d)
    (by rw [Shape.rowMajor_val_four, Shape.rowMajor_val_three]
        show (n.val * 361 + (h.val * 19 + w.val)) * 256 + d.val = ((n.val * 19 + h.val) * 19 + w.val) * 256 + d.val
        omega)

/-! ## The seven operands as the region finds them -/

variable (m : (ℓ : Loc nD τ sig) → Buf (Elt Ideal) ℓ)

/-- The thirteen input arrays of core `c`, as launched. -/
def argsOf (c : Dev nD) : Cert.Spec.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12)⟩

set_option maxHeartbeats 2000000 in
theorem V_v27 (c : Dev nD) : (V m c main_v27 : FVec Ideal S256x361x256 .f32) = xFlatV (argsOf m c).x := by
  show StableHlo.after hostOps0 (fun b => m (c, b)) (Proc.devRef .tc main_v27) = _
  after_results; rfl

set_option maxHeartbeats 2000000 in
theorem V_v8 (c : Dev nD) : (V m c main_v8 : FVec Ideal S256x256 .bf16) = foldW (argsOf m c).w1 (argsOf m c).var1 := by
  show StableHlo.after hostOps0 (fun b => m (c, b)) (Proc.devRef .tc main_v8) = _
  after_results; rfl

set_option maxHeartbeats 2000000 in
theorem V_v11 (c : Dev nD) : (V m c main_v11 : FVec Ideal S1x256 .f32)
    = foldB (argsOf m c).b1 (argsOf m c).mean1 (argsOf m c).var1 (argsOf m c).beta1 := by
  show StableHlo.after hostOps0 (fun b => m (c, b)) (Proc.devRef .tc main_v11) = _
  after_results; rfl

set_option maxHeartbeats 2000000 in
theorem V_v25 (c : Dev nD) : (V m c main_v25 : FVec Ideal S361x361 .bf16) = dwT (argsOf m c).dw := by
  show StableHlo.after hostOps0 (fun b => m (c, b)) (Proc.devRef .tc main_v25) = _
  after_results; rfl

set_option maxHeartbeats 2000000 in
theorem V_v26 (c : Dev nD) : (V m c main_v26 : FVec Ideal S361x1 .f32) = dbCol (argsOf m c).db := by
  show StableHlo.after hostOps0 (fun b => m (c, b)) (Proc.devRef .tc main_v26) = _
  after_results; rfl

set_option maxHeartbeats 2000000 in
theorem V_v20 (c : Dev nD) : (V m c main_v20 : FVec Ideal S256x256 .bf16) = foldW (argsOf m c).w2 (argsOf m c).var2 := by
  show StableHlo.after hostOps0 (fun b => m (c, b)) (Proc.devRef .tc main_v20) = _
  after_results; rfl

set_option maxHeartbeats 2000000 in
theorem V_v23 (c : Dev nD) : (V m c main_v23 : FVec Ideal S1x256 .f32)
    = foldB (argsOf m c).b2 (argsOf m c).mean2 (argsOf m c).var2 (argsOf m c).beta2 := by
  show StableHlo.after hostOps0 (fun b => m (c, b)) (Proc.devRef .tc main_v23) = _
  after_results; rfl

end Cert.KernelIdeal.Host

end
-- ==== Proof.KerTile.lean ====
/-
  One grid step of the fused residual block, read index by index. The step handles eight images; for image `j` it
  takes slab `j` of the input block (1 × 361 × 256), flattens it to 361 × 256, multiplies by the first weights, adds the
  row bias and rectifies; multiplies the dense matrix from the left, adds the column bias and rectifies; multiplies by
  the second weights, adds the second row bias and rectifies; adds the slab back and stores the result at slab `j` of
  the output block. All eight stores carry the same function `tile` of (slab, weights, biases). Over the extended reals
  a change of float format is the identity and a matrix product into a zero accumulator is the plain sum of products, so
  `tile` at `(0, q, d)` is the slab there plus the second block `Spec.blkH3` written over the slab
  (`tile_apply`), and the eight stores together leave `Spec.blkOut` in the output block (`out0_7_eq`).
-/
import proofs.«102772_j32014686224994_1_alg».proof.Proof.Spec
import proofs.«102772_j32014686224994_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Idealize.SL.Sem Cert.KernelIdeal Cert.KernelIdeal.Gen
open scoped BigOperators

/-! ## One function for the eight stores -/

section Generic
variable {F : FTy → Type} [FloatOps F]

/-- What one image's store carries, as a function of the image's slab and the six operand blocks. -/
def tile (xj : Vec F S1x361x256 .f32) (w1 : Vec F S256x256 .bf16) (b1 : Vec F S1x256 .f32) (wd : Vec F S361x361 .bf16)
    (bd : Vec F S361x1 .f32) (w2 : Vec F S256x256 .bf16) (b2 : Vec F S1x256 .f32) : FVec F S1x361x256 .f32 :=
  k0_pay3 (k0_pay2 xj w1 b1 wd bd w2 b2)

variable (xj : Vec F S1x361x256 .f32) (w1 : Vec F S256x256 .bf16) (b1 : Vec F S1x256 .f32) (wd : Vec F S361x361 .bf16)
    (bd : Vec F S361x1 .f32) (w2 : Vec F S256x256 .bf16) (b2 : Vec F S1x256 .f32)

/-- The other seven stores' payloads are cut into named parts differently; each is the same function. -/
theorem pay5_eq : k0_pay5 (k0_pay4 xj w1 b1 wd bd w2 b2) = tile xj w1 b1 wd bd w2 b2 := rfl
theorem pay7_eq : k0_pay7 (k0_pay6 xj w1 b1 wd bd w2 b2) = tile xj w1 b1 wd bd w2 b2 := rfl
theorem pay11_eq : k0_pay11 (k0_pay8 xj) (k0_pay9 xj w1 b1 wd bd w2 b2) (k0_pay10 (F := F)) = tile xj w1 b1 wd bd w2 b2 := rfl
theorem pay14_eq : k0_pay14 (k0_pay12 xj) (k0_pay13 xj w1 b1 wd bd w2 b2) = tile xj w1 b1 wd bd w2 b2 := rfl
theorem pay18_eq : k0_pay18 (k0_pay15 xj) (k0_pay16 xj w1 b1 wd bd w2) (k0_pay17 b2) = tile xj w1 b1 wd bd w2 b2 := rfl
theorem pay21_eq : k0_pay21 (k0_pay19 xj) (k0_pay20 xj w1 b1 wd bd w2) b2 = tile xj w1 b1 wd bd w2 b2 := rfl
theorem pay1_eq : k0_pay1 (k0_pay22 xj) (k0_pay23 xj w1 b1 wd bd w2) b2 = tile xj w1 b1 wd bd w2 b2 := rfl

end Generic

/-! ## A column broadcast read at an index -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products read at an index -/

theorem lhs1_0 (i : S361x256.Idx) (q : dot_S361x256_S256x256_S361x256_1_0_0_1_n_n.contr.Idx) :
    (dot_S361x256_S256x256_S361x256_1_0_0_1_n_n.lhsIdx i q 0).val = (i 0).val := by
  unfold DotDims.lhsIdx
  rw [dif_neg (show ¬(0 : Fin S361x256.rank) ∈ dot_S361x256_S256x256_S361x256_1_0_0_1_n_n.lhsBatch by decide), dif_pos (show (0 : Fin S361x256.rank) ∈ dot_S361x256_S256x256_S361x256_1_0_0_1_n_n.lhsNonContracting by decide)]
  rfl
theorem lhs1_1 (i : S361x256.Idx) (q : dot_S361x256_S256x256_S361x256_1_0_0_1_n_n.contr.Idx) :
    (dot_S361x256_S256x256_S361x256_1_0_0_1_n_n.lhsIdx i q 1).val = (q ⟨0, by decide⟩).val :=
  dot_S361x256_S256x256_S361x256_1_0_0_1_n_n.lhsIdx_val_of_single rfl i q
theorem rhs1_0 (i : S361x256.Idx) (q : dot_S361x256_S256x256_S361x256_1_0_0_1_n_n.contr.Idx) :
    (dot_S361x256_S256x256_S361x256_1_0_0_1_n_n.rhsIdx i q 0).val = (q ⟨0, by decide⟩).val :=
  dot_S361x256_S256x256_S361x256_1_0_0_1_n_n.rhsIdx_val_of_single rfl i q
theorem rhs1_1 (i : S361x256.Idx) (q : dot_S361x256_S256x256_S361x256_1_0_0_1_n_n.contr.Idx) :
    (dot_S361x256_S256x256_S361x256_1_0_0_1_n_n.rhsIdx i q 1).val = (i 1).val := by
  unfold DotDims.rhsIdx
  rw [dif_neg (show ¬(1 : Fin S256x256.rank) ∈ dot_S361x256_S256x256_S361x256_1_0_0_1_n_n.rhsBatch by decide), dif_pos (show (1 : Fin S256x256.rank) ∈ dot_S361x256_S256x256_S361x256_1_0_0_1_n_n.rhsNonContracting by decide)]
  rfl

/-- A 361 × 256 by 256 × 256 product into the zero accumulator, at `(p, d)`: row `p` against column `d`. -/
theorem matmul1_apply {φ₁ φ₂ : FTy} (lhs : FVec Ideal S361x256 φ₁) (rhs : FVec Ideal S256x256 φ₂) (p : Fin 361) (d : Fin 256) :
    matmul dot_S361x256_S256x256_S361x256_1_0_0_1_n_n none lhs rhs (constant (F := Ideal) S361x256 .f32 0x00000000#32) (ix2 p d)
      = ∑ c : Fin 256, lhs (ix2 p c) * rhs (ix2 c d) := by
  simp only [matmul]
  rw [Ideal.matmul_constant_zero_apply, ← Equiv.sum_comp (contrEquiv1 dot_S361x256_S256x256_S361x256_1_0_0_1_n_n 256 rfl rfl).symm]
  refine Finset.sum_congr rfl fun k _ => ?_
  have hk := contrEquiv1_symm_val dot_S361x256_S256x256_S361x256_1_0_0_1_n_n 256 rfl rfl k
  have el : dot_S361x256_S256x256_S361x256_1_0_0_1_n_n.lhsIdx (ix2 p d) ((contrEquiv1 dot_S361x256_S256x256_S361x256_1_0_0_1_n_n 256 rfl rfl).symm k) = ix2 p k := funext fun a => Fin.ext (by
    match a with
    | ⟨0, _⟩ => exact lhs1_0 _ _
    | ⟨1, _⟩ => exact (lhs1_1 _ _).trans hk)
  have er : dot_S361x256_S256x256_S361x256_1_0_0_1_n_n.rhsIdx (ix2 p d) ((contrEquiv1 dot_S361x256_S256x256_S361x256_1_0_0_1_n_n 256 rfl rfl).symm k) = ix2 k d := funext fun a => Fin.ext (by
    match a with
    | ⟨0, _⟩ => exact (rhs1_0 _ _).trans hk
    | ⟨1, _⟩ => exact rhs1_1 _ _)
  rw [el, er]

theorem lhs2_0 (i : S361x256.Idx) (q : dot_S361x361_S361x256_S361x256_1_0_0_1_n_n.contr.Idx) :
    (dot_S361x361_S361x256_S361x256_1_0_0_1_n_n.lhsIdx i q 0).val = (i 0).val := by
  unfold DotDims.lhsIdx
  rw [dif_neg (show ¬(0 : Fin S361x361.rank) ∈ dot_S361x361_S361x256_S361x256_1_0_0_1_n_n.lhsBatch by decide), dif_pos (show (0 : Fin S361x361.rank) ∈ dot_S361x361_S361x256_S361x256_1_0_0_1_n_n.lhsNonContracting by decide)]
  rfl
theorem lhs2_1 (i : S361x256.Idx) (q : dot_S361x361_S361x256_S361x256_1_0_0_1_n_n.contr.Idx) :
    (dot_S361x361_S361x256_S361x256_1_0_0_1_n_n.lhsIdx i q 1).val = (q ⟨0, by decide⟩).val :=
  dot_S361x361_S361x256_S361x256_1_0_0_1_n_n.lhsIdx_val_of_single rfl i q
theorem rhs2_0 (i : S361x256.Idx) (q : dot_S361x361_S361x256_S361x256_1_0_0_1_n_n.contr.Idx) :
    (dot_S361x361_S361x256_S361x256_1_0_0_1_n_n.rhsIdx i q 0).val = (q ⟨0, by decide⟩).val :=
  dot_S361x361_S361x256_S361x256_1_0_0_1_n_n.rhsIdx_val_of_single rfl i q
theorem rhs2_1 (i : S361x256.Idx) (q : dot_S361x361_S361x256_S361x256_1_0_0_1_n_n.contr.Idx) :
    (dot_S361x361_S361x256_S361x256_1_0_0_1_n_n.rhsIdx i q 1).val = (i 1).val := by
  unfold DotDims.rhsIdx
  rw [dif_neg (show ¬(1 : Fin S361x256.rank) ∈ dot_S361x361_S361x256_S361x256_1_0_0_1_n_n.rhsBatch by decide), dif_pos (show (1 : Fin S361x256.rank) ∈ dot_S361x361_S361x256_S361x256_1_0_0_1_n_n.rhsNonContracting by decide)]
  rfl

/-- A 361 × 361 by 361 × 256 product into the zero accumulator, at `(q, c)`: row `q` against column `c`. -/
theorem matmul2_apply {φ₁ φ₂ : FTy} (lhs : FVec Ideal S361x361 φ₁) (rhs : FVec Ideal S361x256 φ₂) (q : Fin 361) (c : Fin 256) :
    matmul dot_S361x361_S361x256_S361x256_1_0_0_1_n_n none lhs rhs (constant (F := Ideal) S361x256 .f32 0x00000000#32) (ix2 q c)
      = ∑ p : Fin 361, lhs (ix2 q p) * rhs (ix2 p c) := by
  simp only [matmul]
  rw [Ideal.matmul_constant_zero_apply, ← Equiv.sum_comp (contrEquiv1 dot_S361x361_S361x256_S361x256_1_0_0_1_n_n 361 rfl rfl).symm]
  refine Finset.sum_congr rfl fun k _ => ?_
  have hk := contrEquiv1_symm_val dot_S361x361_S361x256_S361x256_1_0_0_1_n_n 361 rfl rfl k
  have el : dot_S361x361_S361x256_S361x256_1_0_0_1_n_n.lhsIdx (ix2 q c) ((contrEquiv1 dot_S361x361_S361x256_S361x256_1_0_0_1_n_n 361 rfl rfl).symm k) = ix2 q k := funext fun a => Fin.ext (by
    match a with
    | ⟨0, _⟩ => exact lhs2_0 _ _
    | ⟨1, _⟩ => exact (lhs2_1 _ _).trans hk)
  have er : dot_S361x361_S361x256_S361x256_1_0_0_1_n_n.rhsIdx (ix2 q c) ((contrEquiv1 dot_S361x361_S361x256_S361x256_1_0_0_1_n_n 361 rfl rfl).symm k) = ix2 k c := funext fun a => Fin.ext (by
    match a with
    | ⟨0, _⟩ => exact (rhs2_0 _ _).trans hk
    | ⟨1, _⟩ => exact rhs2_1 _ _)
  rw [el, er]

/-! ## The three layers of the body -/

/-- A channel mix: narrow, multiply by 256 × 256 weights from the right, add the row bias, rectify. -/
def rowLayer (a : FVec Ideal S361x256 .f32) (w : FVec Ideal S256x256 .bf16) (b : FVec Ideal S1x256 .f32) : FVec Ideal S361x256 .f32 :=
  maximumf
    (addf
      (matmul dot_S361x256_S256x256_S361x256_1_0_0_1_n_n none (truncf .bf16 a bitsLt_bf16_f32) (shapeCast S256x256 w shapeCasts_S256x256_S256x256)
        (constant (F := Ideal) S361x256 .f32 0x00000000#32))
      (broadcastTo S361x256 (shapeCast S1x256 b shapeCasts_S1x256_S1x256) broadcasts_S1x256_S361x256))
    (broadcast S361x256 (Scalar.ofBits (F := Ideal) .f32 0x00000000#32))

/-- The board mix: narrow, multiply by the 361 × 361 matrix from the left, add the column bias, rectify. -/
def colLayer (a : FVec Ideal S361x256 .f32) (wd : FVec Ideal S361x361 .bf16) (bd : FVec Ideal S361x1 .f32) : FVec Ideal S361x256 .f32 :=
  maximumf
    (addf
      (matmul dot_S361x361_S361x256_S361x256_1_0_0_1_n_n none (shapeCast S361x361 wd shapeCasts_S361x361_S361x361) (truncf .bf16 a bitsLt_bf16_f32)
        (constant (F := Ideal) S361x256 .f32 0x00000000#32))
      (broadcastTo S361x256 (shapeCast S361x1 bd shapeCasts_S361x1_S361x1) broadcasts_S361x1_S361x256))
    (broadcast S361x256 (Scalar.ofBits (F := Ideal) .f32 0x00000000#32))

theorem rowLayer_apply (a : FVec Ideal S361x256 .f32) (w : FVec Ideal S256x256 .bf16) (b : FVec Ideal S1x256 .f32)
    (p : Fin 361) (d : Fin 256) :
    rowLayer a w b (ix2 p d) = max ((∑ c : Fin 256, a (ix2 p c) * w (ix2 c d)) + b (ix2 (0 : Fin 1) d)) 0 := by
  unfold rowLayer
  rw [maximumf_apply, addf_apply, broadcast_apply, matmul1_apply, broadcastTo_1b_ab_apply, shapeCast_self, shapeCast_self]
  show max _ (Ideal.ofBits .f32 0x00000000#32) = _
  rw [Ideal.ofBits_zero_f32]
  rfl

theorem colLayer_apply (a : FVec Ideal S361x256 .f32) (wd : FVec Ideal S361x361 .bf16) (bd : FVec Ideal S361x1 .f32)
    (q : Fin 361) (c : Fin 256) :
    colLayer a wd bd (ix2 q c) = max ((∑ p : Fin 361, wd (ix2 q p) * a (ix2 p c)) + bd (ix2 q (0 : Fin 1))) 0 := by
  unfold colLayer
  rw [maximumf_apply, addf_apply, broadcast_apply, matmul2_apply, broadcastTo_a1_ab_apply, shapeCast_self, shapeCast_self]
  show max _ (Ideal.ofBits .f32 0x00000000#32) = _
  rw [Ideal.ofBits_zero_f32]
  rfl

/-- The store's payload is the slab plus the three layers over the flattened slab, cast back. -/
theorem tile_eq_layers (xj : Vec Ideal S1x361x256 .f32) (w1 : Vec Ideal S256x256 .bf16) (b1 : Vec Ideal S1x256 .f32)
    (wd : Vec Ideal S361x361 .bf16) (bd : Vec Ideal S361x1 .f32) (w2 : Vec Ideal S256x256 .bf16) (b2 : Vec Ideal S1x256 .f32) :
    tile (F := Ideal) xj w1 b1 wd bd w2 b2
      = shapeCast S1x361x256
          (addf (shapeCast S361x256 xj shapeCasts_S1x361x256_S361x256)
            (rowLayer (colLayer (rowLayer (shapeCast S361x256 xj shapeCasts_S1x361x256_S361x256) w1 b1) wd bd) w2 b2))
          shapeCasts_S361x256_S1x361x256 := rfl

/-! ## The payload at an index -/

/-- First block over one slab. -/
def h1 (xj : Vec Ideal S1x361x256 .f32) (w1 : Vec Ideal S256x256 .bf16) (b1 : Vec Ideal S1x256 .f32)
    (p : Fin 361) (d : Fin 256) : EReal :=
  max ((∑ c : Fin 256, xj (ix3 (0 : Fin 1) p c) * w1 (ix2 c d)) + b1 (ix2 (0 : Fin 1) d)) 0

/-- Board mix over one slab. -/
def h2 (xj : Vec Ideal S1x361x256 .f32) (w1 : Vec Ideal S256x256 .bf16) (b1 : Vec Ideal S1x256 .f32)
    (wd : Vec Ideal S361x361 .bf16) (bd : Vec Ideal S361x1 .f32) (q : Fin 361) (c : Fin 256) : EReal :=
  max ((∑ p : Fin 361, wd (ix2 q p) * h1 xj w1 b1 p c) + bd (ix2 q (0 : Fin 1))) 0

/-- Second block over one slab. -/
def h3 (xj : Vec Ideal S1x361x256 .f32) (w1 : Vec Ideal S256x256 .bf16) (b1 : Vec Ideal S1x256 .f32)
    (wd : Vec Ideal S361x361 .bf16) (bd : Vec Ideal S361x1 .f32) (w2 : Vec Ideal S256x256 .bf16) (b2 : Vec Ideal S1x256 .f32)
    (q : Fin 361) (d : Fin 256) : EReal :=
  max ((∑ c : Fin 256, h2 xj w1 b1 wd bd q c * w2 (ix2 c d)) + b2 (ix2 (0 : Fin 1) d)) 0

theorem tile_apply (xj : Vec Ideal S1x361x256 .f32) (w1 : Vec Ideal S256x256 .bf16) (b1 : Vec Ideal S1x256 .f32)
    (wd : Vec Ideal S361x361 .bf16) (bd : Vec Ideal S361x1 .f32) (w2 : Vec Ideal S256x256 .bf16) (b2 : Vec Ideal S1x256 .f32)
    (u : Fin 1) (q : Fin 361) (d : Fin 256) :
    tile (F := Ideal) xj w1 b1 wd bd w2 b2 (ix3 u q d) = xj (ix3 (0 : Fin 1) q d) + h3 xj w1 b1 wd bd w2 b2 q d := by
  rw [tile_eq_layers, shapeCast_ab_1ab_apply, addf_apply, shapeCast_1ab_ab_apply, rowLayer_apply]
  simp only [colLayer_apply, rowLayer_apply, shapeCast_1ab_ab_apply]
  rfl

/-! ## The eight stores together -/

/-- Over a slab that is image `j` of the block, the second block over the slab is the step's second block of image `j`. -/
theorem h3_eq_blkH3 (x0 : Vec Ideal S8x361x256 .f32) (x1 : Vec Ideal S256x256 .bf16) (x2 : Vec Ideal S1x256 .f32)
    (x3 : Vec Ideal S361x361 .bf16) (x4 : Vec Ideal S361x1 .f32) (x5 : Vec Ideal S256x256 .bf16) (x6 : Vec Ideal S1x256 .f32)
    (xj : Vec Ideal S1x361x256 .f32) (j : Fin 8) (hx : ∀ (p : Fin 361) (c : Fin 256), xj (ix3 (0 : Fin 1) p c) = x0 (ix3 j p c))
    (q : Fin 361) (d : Fin 256) :
    h3 xj x1 x2 x3 x4 x5 x6 q d = Cert.Spec.blkH3 x0 x1 x2 x3 x4 x5 x6 j q d := by
  unfold h3 h2 h1 Cert.Spec.blkH3 Cert.Spec.blkH2 Cert.Spec.blkH1
  simp only [hx]

/-- The store of the slab at offset `n` along the image axis carries the step's result under that slab. -/
theorem slab_piece (x0 : Vec Ideal S8x361x256 .f32) (x1 : Vec Ideal S256x256 .bf16) (x2 : Vec Ideal S1x256 .f32)
    (x3 : Vec Ideal S361x361 .bf16) (x4 : Vec Ideal S361x1 .f32) (x5 : Vec Ideal S256x256 .bf16) (x6 : Vec Ideal S1x256 .f32)
    (n : ℕ) (hn : n < 8) (inb : ∀ a, (![n, 0, 0] : Fin 3 → ℕ) a + S1x361x256.size a ≤ S8x361x256.size a)
    (x : S1x361x256.Idx) :
    tile (F := Ideal) (View.ld x0 (Rect.unit (s := S8x361x256) ![n, 0, 0] S1x361x256.size inb)) (View.ld x1 r0_1)
        (View.ld x2 r0_2) (View.ld x3 r0_3) (View.ld x4 r0_4) (View.ld x5 r0_1) (View.ld x6 r0_2) x
      = Cert.Spec.blkOut x0 x1 x2 x3 x4 x5 x6 ((Rect.unit (s := S8x361x256) ![n, 0, 0] S1x361x256.size inb).emb x) := by
  have z2 : (![0, 0] : Fin 2 → ℕ) = fun _ => 0 := funext fun a => match a with | ⟨0, _⟩ => rfl | ⟨1, _⟩ => rfl
  have e1 : View.ld x1 r0_1 = x1 := View.ld_unit_zero z2 _ x1
  have e2 : View.ld x2 r0_2 = x2 := View.ld_unit_zero z2 _ x2
  have e3 : View.ld x3 r0_3 = x3 := View.ld_unit_zero z2 _ x3
  have e4 : View.ld x4 r0_4 = x4 := View.ld_unit_zero z2 _ x4
  have e5 : View.ld x5 r0_1 = x5 := View.ld_unit_zero z2 _ x5
  have e6 : View.ld x6 r0_2 = x6 := View.ld_unit_zero z2 _ x6
  rw [e1, e2, e3, e4, e5, e6]
  have hemb : ∀ (u : Fin 1) (p : Fin 361) (c : Fin 256),
      (Rect.unit (s := S8x361x256) ![n, 0, 0] S1x361x256.size inb).emb (ix3 u p c) = ix3 (⟨n, hn⟩ : Fin 8) p c :=
    fun u p c => funext fun a => Fin.ext (by
      match a with
      | ⟨0, _⟩ => show n + 1 * u.val = n; have := u.isLt; omega
      | ⟨1, _⟩ => show 0 + 1 * p.val = p.val; omega
      | ⟨2, _⟩ => show 0 + 1 * c.val = c.val; omega)
  obtain ⟨u, q, d, rfl⟩ : ∃ (u : Fin 1) (q : Fin 361) (d : Fin 256), x = ix3 u q d := ⟨x 0, x 1, x 2, eq_ix3 x⟩
  have hx : ∀ (p : Fin 361) (c : Fin 256),
      View.ld x0 (Rect.unit (s := S8x361x256) ![n, 0, 0] S1x361x256.size inb) (ix3 (0 : Fin 1) p c) = x0 (ix3 (⟨n, hn⟩ : Fin 8) p c) :=
    fun p c => congrArg x0 (hemb 0 p c)
  rw [hemb, tile_apply, hx, h3_eq_blkH3 x0 x1 x2 x3 x4 x5 x6 _ ⟨n, hn⟩ hx]
  rfl

/-- What the step leaves in its output block: the eight stores, each the result under its own slab, cover the block. -/
theorem out0_7_eq (x0 : Vec Ideal S8x361x256 .f32) (x1 : Vec Ideal S256x256 .bf16) (x2 : Vec Ideal S1x256 .f32)
    (x3 : Vec Ideal S361x361 .bf16) (x4 : Vec Ideal S361x1 .f32) (x5 : Vec Ideal S256x256 .bf16) (x6 : Vec Ideal S1x256 .f32) :
    Cert.KernelIdeal.Gen.out0_7 (F := Ideal) x0 x1 x2 x3 x4 x5 x6 = Cert.Spec.blkOut x0 x1 x2 x3 x4 x5 x6 := by
  funext y
  unfold Cert.KernelIdeal.Gen.out0_7
  refine View.canon_apply_of_pieces (Val := Elt Ideal) (Cert.Spec.blkOut x0 x1 x2 x3 x4 x5 x6) _ ?_ y (cover0_7 _ _ _ _ _ _ _ _ y)
  intro p hp x
  simp only [List.mem_cons, List.not_mem_nil, or_false] at hp
  rcases hp with rfl | rfl | rfl | rfl | rfl | rfl | rfl | rfl
  · exact (congrFun (pay1_eq _ _ _ _ _ _ _) x).trans (slab_piece x0 x1 x2 x3 x4 x5 x6 7 (by omega) _ x)
  · exact (congrFun (pay21_eq _ _ _ _ _ _ _) x).trans (slab_piece x0 x1 x2 x3 x4 x5 x6 6 (by omega) _ x)
  · exact (congrFun (pay18_eq _ _ _ _ _ _ _) x).trans (slab_piece x0 x1 x2 x3 x4 x5 x6 5 (by omega) _ x)
  · exact (congrFun (pay14_eq _ _ _ _ _ _ _) x).trans (slab_piece x0 x1 x2 x3 x4 x5 x6 4 (by omega) _ x)
  · exact (congrFun (pay11_eq _ _ _ _ _ _ _) x).trans (slab_piece x0 x1 x2 x3 x4 x5 x6 3 (by omega) _ x)
  · exact (congrFun (pay7_eq _ _ _ _ _ _ _) x).trans (slab_piece x0 x1 x2 x3 x4 x5 x6 2 (by omega) _ x)
  · exact (congrFun (pay5_eq _ _ _ _ _ _ _) x).trans (slab_piece x0 x1 x2 x3 x4 x5 x6 1 (by omega) _ x)
  · exact slab_piece x0 x1 x2 x3 x4 x5 x6 0 (by omega) _ x

end Cert.KernelIdeal.Tile

end
-- ==== Proof.KerValue.lean ====
/-
  The kernel program's result as one function of the thirteen input arrays.

  Each of the 32 grid points handles 8 images. Its operands are blocks of the arrays the host prepared: the image block is
  images 8·t … 8·t + 7 of the flattened input, every other operand its whole array. What the point writes back is therefore
  block t of the folded reading of the whole batch (`kerFlat`); the 32 blocks tile the output array, which so ends holding
  `kerFlat`; and the one host operation after the launch puts the board's two axes back, giving `kerOut`.
-/
import proofs.«102772_j32014686224994_1_alg».proof.Proof.Spec
import proofs.«102772_j32014686224994_1_alg».proof.Proof.KerHost
import proofs.«102772_j32014686224994_1_alg».proof.Proof.KerTile
import proofs.«102772_j32014686224994_1_alg».proof.Proof.Gen.KernelIdeal.Frame
import Idealize.ShloMosaic.Lib.ValueIdx
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem Idealize.ShloMosaic.StableHlo
open Idealize.ShloMosaic.Pipeline (Dat Cfg Window)
open Idealize.ShloMosaic.ValueIdx Cert.Spec Cert.KernelIdeal.Host

/-! ## One grid step against the whole-array reading -/

section Step

variable (A : Args) (X0 : (⟨3, ![8, 361, 256]⟩ : Shape).Idx → EReal) (X1 : (⟨2, ![256, 256]⟩ : Shape).Idx → EReal)
  (X2 : (⟨2, ![1, 256]⟩ : Shape).Idx → EReal) (X3 : (⟨2, ![361, 361]⟩ : Shape).Idx → EReal)
  (X4 : (⟨2, ![361, 1]⟩ : Shape).Idx → EReal) (X5 : (⟨2, ![256, 256]⟩ : Shape).Idx → EReal)
  (X6 : (⟨2, ![1, 256]⟩ : Shape).Idx → EReal) (n : Fin 256) (j : Fin 8)

theorem blkH1_eq (h0 : ∀ p c, X0 (ix3 j p c) = xFlat A n p c)
    (h1 : ∀ a d, X1 (ix2 a d) = A.w1 (ix2 a d) * s1 A d)
    (h2 : ∀ d, X2 (ix2 (0 : Fin 1) d) = A.b1 (ix1 d) * s1 A d + (A.beta1 (ix1 d) - A.mean1 (ix1 d) * s1 A d))
    (p : Fin 361) (d : Fin 256) : blkH1 X0 X1 X2 j p d = kerH1 A n p d := by
  unfold blkH1 kerH1
  simp only [h0, h1, h2]

theorem blkH2_eq (h0 : ∀ p c, X0 (ix3 j p c) = xFlat A n p c)
    (h1 : ∀ a d, X1 (ix2 a d) = A.w1 (ix2 a d) * s1 A d)
    (h2 : ∀ d, X2 (ix2 (0 : Fin 1) d) = A.b1 (ix1 d) * s1 A d + (A.beta1 (ix1 d) - A.mean1 (ix1 d) * s1 A d))
    (h3 : ∀ q p, X3 (ix2 q p) = A.dw (ix2 p q)) (h4 : ∀ q, X4 (ix2 q (0 : Fin 1)) = A.db (ix1 q))
    (q : Fin 361) (c : Fin 256) : blkH2 X0 X1 X2 X3 X4 j q c = kerH2 A n q c := by
  unfold blkH2 kerH2
  simp only [h3, h4, blkH1_eq A X0 X1 X2 n j h0 h1 h2]

theorem blkOut_eq (h0 : ∀ p c, X0 (ix3 j p c) = xFlat A n p c)
    (h1 : ∀ a d, X1 (ix2 a d) = A.w1 (ix2 a d) * s1 A d)
    (h2 : ∀ d, X2 (ix2 (0 : Fin 1) d) = A.b1 (ix1 d) * s1 A d + (A.beta1 (ix1 d) - A.mean1 (ix1 d) * s1 A d))
    (h3 : ∀ q p, X3 (ix2 q p) = A.dw (ix2 p q)) (h4 : ∀ q, X4 (ix2 q (0 : Fin 1)) = A.db (ix1 q))
    (h5 : ∀ a d, X5 (ix2 a d) = A.w2 (ix2 a d) * s2 A d)
    (h6 : ∀ d, X6 (ix2 (0 : Fin 1) d) = A.b2 (ix1 d) * s2 A d + (A.beta2 (ix1 d) - A.mean2 (ix1 d) * s2 A d))
    (q : Fin 361) (d : Fin 256) : blkOut X0 X1 X2 X3 X4 X5 X6 (ix3 j q d) = kerFlat A (ix3 n q d) := by
  show X0 (ix3 j q d) + blkH3 X0 X1 X2 X3 X4 X5 X6 j q d = xFlat A n q d + kerH3 A n q d
  unfold blkH3 kerH3
  simp only [h0, h5, h6, blkH2_eq A X0 X1 X2 X3 X4 n j h0 h1 h2 h3 h4]

end Step

/-! ## The grid's index maps, decided once -/

/-- The image window and the output window move along the batch axis with the grid point; every other window stays. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (m : (ℓ : Loc nD τ sig) → Buf (Elt Ideal) ℓ)

/-- The image block of point `t`: images `8·t … 8·t + 7` of the flattened input. -/
theorem iblk0_apply (c : Dev nD) (t : Fin cfg0.N) (n : Fin 256) (j : Fin 8) (hn : n.val = t.val * 8 + j.val) (p : Fin 361) (c' : Fin 256) :
    (iblk m c 0 t : (⟨3, ![8, 361, 256]⟩ : Shape).Idx → EReal) (ix3 j p c') = xFlat (argsOf m c) n p c' := by
  obtain ⟨e0, e1, e2, -⟩ := idx_facts t
  show (V m c main_v27 : FVec Ideal S256x361x256 .f32) (((cfg0.win 0).blk t).view.emb (ix3 j p c')) = _
  rw [V_v27]
  have he : ((cfg0.win 0).blk t).view.emb (ix3 j p c') = ix3 n p c' := by
    funext a; apply Fin.ext
    match a with
    | ⟨0, _⟩ => show win0_0.index t (0 : Fin 3) * 8 + 1 * j.val = n.val; rw [e0, hn]; omega
    | ⟨1, _⟩ => show win0_0.index t (1 : Fin 3) * 361 + 1 * p.val = p.val; rw [e1]; omega
    | ⟨2, _⟩ => show win0_0.index t (2 : Fin 3) * 256 + 1 * c'.val = c'.val; rw [e2]; omega
  rw [he, xFlatV_apply]
  rfl

theorem iblk1_apply (c : Dev nD) (t : Fin cfg0.N) (a d : Fin 256) :
    (iblk m c 1 t : (⟨2, ![256, 256]⟩ : Shape).Idx → EReal) (ix2 a d) = (argsOf m c).w1 (ix2 a d) * s1 (argsOf m c) d := by
  have e0 : win0_1.index t (0 : Fin 2) = 0 := by have := idx_facts t; tauto
  have e1 : win0_1.index t (1 : Fin 2) = 0 := by have := idx_facts t; tauto
  show (V m c main_v8 : FVec Ideal S256x256 .bf16) (((cfg0.win 1).blk t).view.emb (ix2 a d)) = _
  rw [V_v8]
  have he : ((cfg0.win 1).blk t).view.emb (ix2 a d) = ix2 a d := by
    funext x; apply Fin.ext
    match x with
    | ⟨0, _⟩ => show win0_1.index t (0 : Fin 2) * 256 + 1 * (a).val = (a).val; rw [e0]; omega
    | ⟨1, _⟩ => show win0_1.index t (1 : Fin 2) * 256 + 1 * (d).val = (d).val; rw [e1]; omega
  rw [he, foldW_apply]
  rfl

theorem iblk2_apply (c : Dev nD) (t : Fin cfg0.N) (d : Fin 256) :
    (iblk m c 2 t : (⟨2, ![1, 256]⟩ : Shape).Idx → EReal) (ix2 (0 : Fin 1) d) = (argsOf m c).b1 (ix1 d) * s1 (argsOf m c) d + ((argsOf m c).beta1 (ix1 d) - (argsOf m c).mean1 (ix1 d) * s1 (argsOf m c) d) := by
  have e0 : win0_2.index t (0 : Fin 2) = 0 := by have := idx_facts t; tauto
  have e1 : win0_2.index t (1 : Fin 2) = 0 := by have := idx_facts t; tauto
  show (V m c main_v11 : FVec Ideal S1x256 .f32) (((cfg0.win 2).blk t).view.emb (ix2 (0 : Fin 1) d)) = _
  rw [V_v11]
  have he : ((cfg0.win 2).blk t).view.emb (ix2 (0 : Fin 1) d) = ix2 (0 : Fin 1) d := by
    funext x; apply Fin.ext
    match x with
    | ⟨0, _⟩ => show win0_2.index t (0 : Fin 2) * 1 + 1 * ((0 : Fin 1)).val = ((0 : Fin 1)).val; rw [e0]; omega
    | ⟨1, _⟩ => show win0_2.index t (1 : Fin 2) * 256 + 1 * (d).val = (d).val; rw [e1]; omega
  rw [he, foldB_apply]
  rfl

theorem iblk3_apply (c : Dev nD) (t : Fin cfg0.N) (q p : Fin 361) :
    (iblk m c 3 t : (⟨2, ![361, 361]⟩ : Shape).Idx → EReal) (ix2 q p) = (argsOf m c).dw (ix2 p q) := by
  have e0 : win0_3.index t (0 : Fin 2) = 0 := by have := idx_facts t; tauto
  have e1 : win0_3.index t (1 : Fin 2) = 0 := by have := idx_facts t; tauto
  show (V m c main_v25 : FVec Ideal S361x361 .bf16) (((cfg0.win 3).blk t).view.emb (ix2 q p)) = _
  rw [V_v25]
  have he : ((cfg0.win 3).blk t).view.emb (ix2 q p) = ix2 q p := by
    funext x; apply Fin.ext
    match x with
    | ⟨0, _⟩ => show win0_3.index t (0 : Fin 2) * 361 + 1 * (q).val = (q).val; rw [e0]; omega
    | ⟨1, _⟩ => show win0_3.index t (1 : Fin 2) * 361 + 1 * (p).val = (p).val; rw [e1]; omega
  rw [he, dwT_apply]

theorem iblk4_apply (c : Dev nD) (t : Fin cfg0.N) (q : Fin 361) :
    (iblk m c 4 t : (⟨2, ![361, 1]⟩ : Shape).Idx → EReal) (ix2 q (0 : Fin 1)) = (argsOf m c).db (ix1 q) := by
  have e0 : win0_4.index t (0 : Fin 2) = 0 := by have := idx_facts t; tauto
  have e1 : win0_4.index t (1 : Fin 2) = 0 := by have := idx_facts t; tauto
  show (V m c main_v26 : FVec Ideal S361x1 .f32) (((cfg0.win 4).blk t).view.emb (ix2 q (0 : Fin 1))) = _
  rw [V_v26]
  have he : ((cfg0.win 4).blk t).view.emb (ix2 q (0 : Fin 1)) = ix2 q (0 : Fin 1) := by
    funext x; apply Fin.ext
    match x with
    | ⟨0, _⟩ => show win0_4.index t (0 : Fin 2) * 361 + 1 * (q).val = (q).val; rw [e0]; omega
    | ⟨1, _⟩ => show win0_4.index t (1 : Fin 2) * 1 + 1 * ((0 : Fin 1)).val = ((0 : Fin 1)).val; rw [e1]; omega
  rw [he, dbCol_apply]

theorem iblk5_apply (c : Dev nD) (t : Fin cfg0.N) (a d : Fin 256) :
    (iblk m c 5 t : (⟨2, ![256, 256]⟩ : Shape).Idx → EReal) (ix2 a d) = (argsOf m c).w2 (ix2 a d) * s2 (argsOf m c) d := by
  have e0 : win0_5.index t (0 : Fin 2) = 0 := by have := idx_facts t; tauto
  have e1 : win0_5.index t (1 : Fin 2) = 0 := by have := idx_facts t; tauto
  show (V m c main_v20 : FVec Ideal S256x256 .bf16) (((cfg0.win 5).blk t).view.emb (ix2 a d)) = _
  rw [V_v20]
  have he : ((cfg0.win 5).blk t).view.emb (ix2 a d) = ix2 a d := by
    funext x; apply Fin.ext
    match x with
    | ⟨0, _⟩ => show win0_5.index t (0 : Fin 2) * 256 + 1 * (a).val = (a).val; rw [e0]; omega
    | ⟨1, _⟩ => show win0_5.index t (1 : Fin 2) * 256 + 1 * (d).val = (d).val; rw [e1]; omega
  rw [he, foldW_apply]
  rfl

theorem iblk6_apply (c : Dev nD) (t : Fin cfg0.N) (d : Fin 256) :
    (iblk m c 6 t : (⟨2, ![1, 256]⟩ : Shape).Idx → EReal) (ix2 (0 : Fin 1) d) = (argsOf m c).b2 (ix1 d) * s2 (argsOf m c) d + ((argsOf m c).beta2 (ix1 d) - (argsOf m c).mean2 (ix1 d) * s2 (argsOf m c) d) := by
  have e0 : win0_6.index t (0 : Fin 2) = 0 := by have := idx_facts t; tauto
  have e1 : win0_6.index t (1 : Fin 2) = 0 := by have := idx_facts t; tauto
  show (V m c main_v23 : FVec Ideal S1x256 .f32) (((cfg0.win 6).blk t).view.emb (ix2 (0 : Fin 1) d)) = _
  rw [V_v23]
  have he : ((cfg0.win 6).blk t).view.emb (ix2 (0 : Fin 1) d) = ix2 (0 : Fin 1) d := by
    funext x; apply Fin.ext
    match x with
    | ⟨0, _⟩ => show win0_6.index t (0 : Fin 2) * 1 + 1 * ((0 : Fin 1)).val = ((0 : Fin 1)).val; rw [e0]; omega
    | ⟨1, _⟩ => show win0_6.index t (1 : Fin 2) * 256 + 1 * (d).val = (d).val; rw [e1]; omega
  rw [he, foldB_apply]
  rfl

/-! ## What a grid point writes back, and the array after the run -/

/-- Point `t` writes back block `t` of the folded reading of the whole batch. -/
theorem flushed_eq (c : Dev nD) (t : Fin cfg0.N) :
    (dats m 0 c).flushed 7 t = ((cfg0.win 7).blk t).view.read (Elt Ideal) (kerFlat (argsOf m c)) := by
  have e0 : win0_7.index t (0 : Fin 3) = t.val := by have := idx_facts t; tauto
  have e1 : win0_7.index t (1 : Fin 3) = 0 := by have := idx_facts t; tauto
  have e2 : win0_7.index t (2 : Fin 3) = 0 := by have := idx_facts t; tauto
  have ht : t.val < 32 := lt_of_lt_of_eq t.isLt N_0
  show (cfg0.win 7).cut (grid0.coords t) ((dats m 0 c).after 7 t) = _
  rw [after0_7, Cert.KernelIdeal.Tile.out0_7_eq]
  funext y
  obtain ⟨j, q, d, rfl⟩ : ∃ (j : Fin 8) (q : Fin 361) (d : Fin 256), y = ix3 j q d := ⟨y 0, y 1, y 2, eq_ix3 y⟩
  have hj := j.isLt
  show blkOut (iblk m c 0 t) (iblk m c 1 t) (iblk m c 2 t) (iblk m c 3 t) (iblk m c 4 t) (iblk m c 5 t) (iblk m c 6 t) (ix3 j q d)
    = kerFlat (argsOf m c) (((cfg0.win 7).blk t).view.emb (ix3 j q d))
  have he : ((cfg0.win 7).blk t).view.emb (ix3 j q d) = ix3 (⟨t.val * 8 + j.val, by omega⟩ : Fin 256) q d := by
    funext a; apply Fin.ext
    match a with
    | ⟨0, _⟩ => show win0_7.index t (0 : Fin 3) * 8 + 1 * j.val = t.val * 8 + j.val; rw [e0]; omega
    | ⟨1, _⟩ => show win0_7.index t (1 : Fin 3) * 361 + 1 * q.val = q.val; rw [e1]; omega
    | ⟨2, _⟩ => show win0_7.index t (2 : Fin 3) * 256 + 1 * d.val = d.val; rw [e2]; omega
  rw [he]
  exact blkOut_eq (argsOf m c) _ _ _ _ _ _ _ ⟨t.val * 8 + j.val, by omega⟩ j
    (fun p c' => iblk0_apply m c t _ j rfl p c') (iblk1_apply m c t) (iblk2_apply m c t) (iblk3_apply m c t)
    (iblk4_apply m c t) (iblk5_apply m c t) (iblk6_apply m c t) q d

/-- An index of the output array lies in point `t`'s block iff each coordinate lies in the block's range. -/
theorem mem_blk7 (t : Fin cfg0.N) (i : S256x361x256.Idx) :
    i ∈ ((cfg0.win 7).blk t).view.set ↔ ∀ a : Fin 3, win0_7.index t a * S8x361x256.size a ≤ (i a).val
      ∧ (i a).val < win0_7.index t a * S8x361x256.size a + S8x361x256.size a := by
  show i ∈ ((View.whole main_v28).slice (win0_7.rect t)).set ↔ _
  rw [View.set_slice_whole, Rect.mem_set_unit]
  exact Iff.rfl

/-- The 32 blocks of 8 images tile the batch: image `n` is in the block of point `n / 8`. -/
theorem cover7 (i : S256x361x256.Idx) :
    ∃ t : Fin cfg0.N, (cfg0.win 7).flush t = true ∧ i ∈ ((cfg0.win 7).blk t).view.set := by
  have h0 : (i 0).val < 256 := (i 0).isLt
  have h1 : (i 1).val < 361 := (i 1).isLt
  have h2 : (i 2).val < 256 := (i 2).isLt
  let t : Fin cfg0.N := ⟨(i 0).val / 8, by rw [show cfg0.N = 32 from N_0]; omega⟩
  have e0 : win0_7.index t (0 : Fin 3) = t.val := by have := idx_facts t; tauto
  have e1 : win0_7.index t (1 : Fin 3) = 0 := by have := idx_facts t; tauto
  have e2 : win0_7.index t (2 : Fin 3) = 0 := by have := idx_facts t; tauto
  have htv : t.val = (i 0).val / 8 := rfl
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; rw [e0, htv]; omega
  | ⟨1, _⟩ => show win0_7.index t (1 : Fin 3) * 361 ≤ (i 1).val ∧ (i 1).val < win0_7.index t (1 : Fin 3) * 361 + 361; rw [e1]; omega
  | ⟨2, _⟩ => show win0_7.index t (2 : Fin 3) * 256 ≤ (i 2).val ∧ (i 2).val < win0_7.index t (2 : Fin 3) * 256 + 256; rw [e2]; omega

/-- The launch's output array after the run is the folded reading on the flattened board. -/
theorem final7 (c : Dev nD) : (dats m 0 c).arrAt 7 cfg0.N = kerFlat (argsOf m c) :=
  (dats m 0 c).arrAt_eq_of_cover 7 (kerFlat (argsOf m c)) (fun t _ => flushed_eq m c t) cover7

/-! ## The host operation after the launch, and the run -/

/-- The program's result: the output array with the board's two axes restored. -/
theorem tail_eq (c : Dev nD) :
    (Pipeline.afterTail₀ cfgs (dats m) 0 (V0 m) [hostOps1] c main_v29 : FVec Ideal S256x19x19x256 .f32) = kerOut (argsOf m c) := by
  unfold Pipeline.afterTail₀
  show StableHlo.after hostOps1 _ (Proc.devRef .tc main_v29) = _
  after_results
  have hw : (Pipeline.withArrays (cfgs 0).spec c (V0 m c) (fun w => (dats m 0 c).arrAt w (cfgs 0).N)
      (Proc.devRef .tc main_v28) : FVec Ideal S256x361x256 .f32) = kerFlat (argsOf m c) :=
    (Pipeline.withArrays_arr spec0 launch0.win.arr_inj c _ _ 7).trans (final7 m c)
  funext i
  obtain ⟨n, h, w, d, rfl⟩ : ∃ (n : Fin 256) (h w : Fin 19) (d : Fin 256), i = ix4 n h w d := ⟨i 0, i 1, i 2, i 3, eq_ix4 i⟩
  show unflat (Pipeline.withArrays (cfgs 0).spec c (V0 m c) (fun w => (dats m 0 c).arrAt w (cfgs 0).N)
      (Proc.devRef .tc main_v28)) (ix4 n h w d) = _
  rw [hw, unflat_apply]
  rfl

/-- Every weakly fair execution of the kernel program terminates with its result at the folded reading of the launch
    contents of the thirteen inputs, and the inputs unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v29) = kerOut (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).2 main_v29 (Pipeline.mem_restRefs_of main_v29 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.KerValue

end
-- ==== Proof.lean ====
/-
  The certificate of the fused residual block against its reference.

  The block is  out = x + relu(BN₂(conv₂(relu(dense(relu(BN₁(conv₁ x)))))))  on a 256 × 19 × 19 × 256 image batch: two
  channel mixes (256 × 256), each followed by an inference batch normalisation without scale, and between them a dense
  mix over the 361 board positions. The reference normalises after each channel mix; the kernel program folds each
  normalisation into the mix on the host — weights w · s, bias b · s + (beta − mean · s), s = rsqrt(var + ε) — flattens the
  board, and runs the three products for eight images per grid step with the dense matrix applied from the left.

  At the exact instance the narrowing to bfloat16 is the identity, a product into a zero accumulator is a finite sum, and
  the two programs differ by exactly one law: Σ_c x_c · (w_c · s) + (b · s + (beta − mean · s)) = ((Σ_c x_c · w_c + b) − mean) · s + beta.
  On the extended reals that law needs every term real and s real, which is what the precondition gives: every input
  entry finite, both variances non-negative (so var + ε > 0 and s is a positive real). Where var + ε ≤ 0 the reference itself
  is infinite or undefined.

  The three frames are the generated ones (the reference's is its generated run with the result dropped); no rewrite was
  applied when the kernel was idealized, so the preservation claim is trivial; the value claim pairs the kernel's run
  (result `kerOut` of the launch contents) with the reference's run (result `refOut`), the two equal on admissible inputs.
-/
import proofs.«102772_j32014686224994_1_alg».proof.Defs
import proofs.«102772_j32014686224994_1_alg».proof.Proof.Gen.Kernel
import proofs.«102772_j32014686224994_1_alg».proof.Proof.Gen.Kernel.Skeleton
import proofs.«102772_j32014686224994_1_alg».proof.Proof.Gen.Kernel.Launch
import proofs.«102772_j32014686224994_1_alg».proof.Proof.Gen.Kernel.Points
import proofs.«102772_j32014686224994_1_alg».proof.Proof.Gen.Kernel.Frame
import proofs.«102772_j32014686224994_1_alg».proof.Proof.Gen.KernelIdeal
import proofs.«102772_j32014686224994_1_alg».proof.Proof.Gen.KernelIdeal.Skeleton
import proofs.«102772_j32014686224994_1_alg».proof.Proof.Gen.KernelIdeal.Launch
import proofs.«102772_j32014686224994_1_alg».proof.Proof.Gen.KernelIdeal.Points
import proofs.«102772_j32014686224994_1_alg».proof.Proof.Gen.KernelIdeal.Frame
import proofs.«102772_j32014686224994_1_alg».proof.Proof.Gen.ReferenceIdeal
import proofs.«102772_j32014686224994_1_alg».proof.Proof.Gen.Pre_finite_inputs
import proofs.«102772_j32014686224994_1_alg».proof.Proof.Gen.ReferenceIdeal.Run
import proofs.«102772_j32014686224994_1_alg».proof.Proof.Gen.ReferenceIdeal.Read
import proofs.«102772_j32014686224994_1_alg».proof.Proof.Spec
import proofs.«102772_j32014686224994_1_alg».proof.Proof.Algebra
import proofs.«102772_j32014686224994_1_alg».proof.Proof.PreDecode
import proofs.«102772_j32014686224994_1_alg».proof.Proof.RefValue
import proofs.«102772_j32014686224994_1_alg».proof.Proof.KerHost
import proofs.«102772_j32014686224994_1_alg».proof.Proof.KerTile
import proofs.«102772_j32014686224994_1_alg».proof.Proof.KerValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the exact instance. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the thirteen inputs, on admissible inputs, both programs end at the same array:
    the folded reading equals the reading that normalises after the mix. -/
theorem algebraic : Cert.algebraic_KernelIdeal_ReferenceIdeal := by
  intro m ρ m' ρ' hpre hagree
  refine ⟨fun c => Cert.Spec.kerOut (Cert.KernelIdeal.Host.argsOf m c), Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v43_eq, Cert.ReferenceIdeal.RefValue.val_eq_refOut, h0, h1, h2, h3, h4, h5, h6, h7, h8, h9, h10, h11, h12]
  exact (Cert.Spec.kerOut_eq_refOut (Cert.KernelIdeal.Host.argsOf m c)
    (Cert.PreDecode.admissible_of_pre _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
